-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S64x1024 : Shape := ⟨2, ![64, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : FVec F S16x4096x1024 .f32) (main_arg1 : FVec F S64x1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  main_v8
-- ==== Kernel.lean ====
abbrev S16x4096x1024 : Shape := ⟨3, ![16, 4096, 1024]⟩
abbrev S64x1024 : Shape := ⟨2, ![64, 1024]⟩
abbrev S16x64x1024 : Shape := ⟨3, ![16, 64, 1024]⟩
abbrev S1x2048x1024 : Shape := ⟨3, ![1, 2048, 1024]⟩
abbrev S1x64x1024 : Shape := ⟨3, ![1, 64, 1024]⟩
abbrev S64x1 : Shape := ⟨2, ![64, 1]⟩
abbrev S2048x1024 : Shape := ⟨2, ![2048, 1024]⟩
abbrev S512x1024 : Shape := ⟨2, ![512, 1024]⟩
abbrev S64x2048 : Shape := ⟨2, ![64, 2048]⟩
abbrev S64 : Shape := ⟨1, ![64]⟩
abbrev S16x65536 : Shape := ⟨2, ![16, 65536]⟩

abbrev nBuf : Space → Nat
  | .hbm => 5
  | .vmem => 9
  | .smem => 0
  | _ => 0

abbrev bufTy : (tb : Table) → Fin (tcTables nBuf tb) → BufTy
  | .hbm, ⟨0, _⟩ => ⟨S16x4096x1024, .f32⟩
  | .hbm, ⟨1, _⟩ => ⟨S64x1024, .f32⟩
  | .hbm, ⟨2, _⟩ => ⟨S64x1024, .bf16⟩
  | .hbm, ⟨3, _⟩ => ⟨S16x64x1024, .f32⟩
  | .hbm, ⟨4, _⟩ => ⟨S16x65536, .f32⟩
  | .local _ .vmem, ⟨0, _⟩ => ⟨S1x2048x1024, .f32⟩
  | .local _ .vmem, ⟨1, _⟩ => ⟨S1x2048x1024, .f32⟩
  | .local _ .vmem, ⟨2, _⟩ => ⟨S64x1024, .bf16⟩
  | .local _ .vmem, ⟨3, _⟩ => ⟨S1x64x1024, .f32⟩
  | .local _ .vmem, ⟨4, _⟩ => ⟨S1x64x1024, .f32⟩
  | .local _ .vmem, ⟨5, _⟩ => ⟨S64x1, .f32⟩
  | .local _ .vmem, ⟨6, _⟩ => ⟨S64x1, .f32⟩
  | .local _ .vmem, ⟨7, _⟩ => ⟨S64x1024, .f32⟩
  | .local _ .vmem, ⟨8, _⟩ => ⟨S2048x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 2], ![false, false]⟩

def k0_mult1 : BitVec 32 :=
  let c0_i32_0 : BitVec 32 := 0#32
  let c512_i32 : BitVec 32 := 512#32
  let v0 : BitVec 32 := Scalar.muli c0_i32_0 c512_i32
  v0
def k0_off1 (c0_i32_0 : BitVec 32) : Fin 2 → Nat :=
  let c512_i32 : BitVec 32 := 512#32
  let v0 : BitVec 32 := Scalar.muli c0_i32_0 c512_i32
  let v1 : BitVec 32 := v0
  let v4 : Index := Scalar.indexCast v1
  let c0 : Index := 0#32
  ![v4.toNat, 0]
def k0_mult2 : BitVec 32 :=
  let c1_i32 : BitVec 32 := 1#32
  let c512_i32_4 : BitVec 32 := 512#32
  let v11 : BitVec 32 := Scalar.muli c1_i32 c512_i32_4
  v11
def k0_mult3 : BitVec 32 :=
  let c2_i32 : BitVec 32 := 2#32
  let c512_i32_9 : BitVec 32 := 512#32
  let v22 : BitVec 32 := Scalar.muli c2_i32 c512_i32_9
  v22
def k0_mult4 : BitVec 32 :=
  let c3_i32 : BitVec 32 := 3#32
  let c512_i32_14 : BitVec 32 := 512#32
  let v33 : BitVec 32 := Scalar.muli c3_i32 c512_i32_14
  v33
def k0_cond3 (i : grid0.Coords) : BitVec 1 :=
  let arg1 : BitVec 32 := BitVec.ofNat 32 (i 1).val
  let c1_i32_28 : BitVec 32 := 1#32
  let v56 : BitVec 1 := Scalar.cmpi .eq arg1 c1_i32_28
  let v57 : BitVec 32 := Scalar.extui v56
  let c0_i32_29 : BitVec 32 := 0#32
  let v58 : BitVec 1 := Scalar.cmpi .ne v57 c0_i32_29
  v58

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  squeezes_S1x2048x1024_S2048x1024 : S1x2048x1024.Squeezes S2048x1024
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  reduces_S64x2048_S64 : S64x2048.Reduces [1] S64
  shapeCasts_S64_S64x1 : S64.ShapeCasts S64x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x2048 : S64x1.Broadcasts S64x2048
  broadcasts_S64x1_S64x1024 : S64x1.Broadcasts S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  shapeCasts_S16x64x1024_S16x65536 : S16x64x1024.ShapeCasts S16x65536
  dot_S64x1024_S2048x1024_S64x2048_1_1_0_0_n_n_wf : DotDims.WF S64x1024 S2048x1024 S64x2048 [1] [1] [0] [0] [] []
  dot_S64x2048_S2048x1024_S64x1024_1_0_0_1_n_n_wf : DotDims.WF S64x2048 S2048x1024 S64x1024 [1] [0] [0] [1] [] []
  hrank0 : 0 < grid0.rank
  k0_mult1_dvd : 512 ∣ k0_mult1.toNat
  k0_off1_inb : ∀ (r : Fin 4), ∀ a, (k0_off1 (BitVec.ofNat 32 r.val)) a + S512x1024.size a ≤ S2048x1024.size a
  k0_off1_packedbf16 : ∀ (r : Fin 4), (Rect.unit (s := S2048x1024) (k0_off1 (BitVec.ofNat 32 r.val)) S512x1024.size (k0_off1_inb r)).PackedRows (EltTy.packing .bf16)
  k0_mult2_dvd : 512 ∣ k0_mult2.toNat
  k0_mult3_dvd : 512 ∣ k0_mult3.toNat
  k0_mult4_dvd : 512 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S16x4096x1024.size a
  hwx0_0 : ∀ i : grid0.Coords, EltTy.bits .f32 = 32 ∨ (Rect.block (s := S16x4096x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .bf16 = 32 ∨ (Rect.block (s := S64x1024) S64x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1024.size a ≤ S16x64x1024.size a
  hwx0_2 : ∀ i : grid0.Coords, EltTy.bits .f32 = 32 ∨ (Rect.block (s := S16x64x1024) S1x64x1024.size (cc0_transform_2 i) (hinb0_2 i)).WholeWords (EltTy.packing .f32)

variable [Facts₀]

def dot_S64x1024_S2048x1024_S64x2048_1_1_0_0_n_n : DotDims S64x1024 S2048x1024 S64x2048 where
  lhsContracting := [1]
  rhsContracting := [1]
  lhsNonContracting := [0]
  rhsNonContracting := [0]
  lhsBatch := []
  rhsBatch := []
  wf := dot_S64x1024_S2048x1024_S64x2048_1_1_0_0_n_n_wf
def dot_S64x2048_S2048x1024_S64x1024_1_0_0_1_n_n : DotDims S64x2048 S2048x1024 S64x1024 where
  lhsContracting := [1]
  rhsContracting := [0]
  lhsNonContracting := [0]
  rhsNonContracting := [1]
  lhsBatch := []
  rhsBatch := []
  wf := dot_S64x2048_S2048x1024_S64x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S16x4096x1024 : Shape := ⟨3, ![16, 4096, 1024]⟩
abbrev S64x1024 : Shape := ⟨2, ![64, 1024]⟩
abbrev S64x16x4096 : Shape := ⟨3, ![64, 16, 4096]⟩
abbrev S16x64x4096 : Shape := ⟨3, ![16, 64, 4096]⟩
abbrev S_ : Shape := ⟨0, ![]⟩
abbrev S16x64 : Shape := ⟨2, ![16, 64]⟩
abbrev S16x64x1 : Shape := ⟨3, ![16, 64, 1]⟩
abbrev S16x64x1024 : Shape := ⟨3, ![16, 64, 1024]⟩
abbrev S16x65536 : Shape := ⟨2, ![16, 65536]⟩

abbrev nBuf : Space → Nat
  | .hbm => 20
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S64x1024, .f32⟩
  | .hbm, ⟨2, _⟩ => ⟨S64x16x4096, .f32⟩
  | .hbm, ⟨3, _⟩ => ⟨S16x64x4096, .f32⟩
  | .hbm, ⟨4, _⟩ => ⟨S_, .f32⟩
  | .hbm, ⟨5, _⟩ => ⟨S16x64, .f32⟩
  | .hbm, ⟨6, _⟩ => ⟨S_, .f32⟩
  | .hbm, ⟨7, _⟩ => ⟨S16x64, .f32⟩
  | .hbm, ⟨8, _⟩ => ⟨S16x64, .f32⟩
  | .hbm, ⟨9, _⟩ => ⟨S16x64x1, .f32⟩
  | .hbm, ⟨10, _⟩ => ⟨S16x64x4096, .f32⟩
  | .hbm, ⟨11, _⟩ => ⟨S16x64x4096, .f32⟩
  | .hbm, ⟨12, _⟩ => ⟨S16x64x4096, .f32⟩
  | .hbm, ⟨13, _⟩ => ⟨S_, .f32⟩
  | .hbm, ⟨14, _⟩ => ⟨S16x64, .f32⟩
  | .hbm, ⟨15, _⟩ => ⟨S16x64x1, .f32⟩
  | .hbm, ⟨16, _⟩ => ⟨S16x64x4096, .f32⟩
  | .hbm, ⟨17, _⟩ => ⟨S16x64x4096, .f32⟩
  | .hbm, ⟨18, _⟩ => ⟨S16x64x1024, .f32⟩
  | .hbm, ⟨19, _⟩ => ⟨S16x65536, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  transposes_S64x16x4096_S16x64x4096_1_0_2 : S64x16x4096.Transposes [1, 0, 2] S16x64x4096
  reducesTo_S16x64x4096_S16x64_d2 : S16x64x4096.ReducesTo [2] S16x64
  h_S_ : 0 < S_.numel
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S16x64x1_S16x64x4096_0_1_2 : S16x64x1.BroadcastsInDim S16x64x4096 (![0, 1, 2] : Fin 3 → Fin S16x64x4096.rank)
  shapeCasts_S16x64x1024_S16x65536 : S16x64x1024.ShapeCasts S16x65536
  dot_S64x1024_S16x4096x1024_S64x16x4096_1_2_0_01_n_n_wf : DotDims.WF S64x1024 S16x4096x1024 S64x16x4096 [1] [2] [0] [0, 1] [] []
  dot_S16x64x4096_S16x4096x1024_S16x64x1024_2_1_1_2_0_0_wf : DotDims.WF S16x64x4096 S16x4096x1024 S16x64x1024 [2] [1] [1] [2] [0] [0]

variable [Facts₀]

def dot_S64x1024_S16x4096x1024_S64x16x4096_1_2_0_01_n_n : DotDims S64x1024 S16x4096x1024 S64x16x4096 where
  lhsContracting := [1]
  rhsContracting := [2]
  lhsNonContracting := [0]
  rhsNonContracting := [0, 1]
  lhsBatch := []
  rhsBatch := []
  wf := dot_S64x1024_S16x4096x1024_S64x16x4096_1_2_0_01_n_n_wf
def dot_S16x64x4096_S16x4096x1024_S16x64x1024_2_1_1_2_0_0 : DotDims S16x64x4096 S16x4096x1024 S16x64x1024 where
  lhsContracting := [2]
  rhsContracting := [1]
  lhsNonContracting := [1]
  rhsNonContracting := [2]
  lhsBatch := [0]
  rhsBatch := [0]
  wf := dot_S16x64x4096_S16x4096x1024_S16x64x1024_2_1_1_2_0_0_wf

class Facts : Prop extends Facts₀ where

variable [Facts]
-- ==== Proof.Spec.lean ====
/-
  Attention pooling, entry by entry, on the extended reals.

  For a batch b, a query row c and a feature h, write x s = sum over k of Q c k * H b s k for the score of
  sequence position s, and v s = H b s h for the value pooled.  The pooled entry is the softmax-weighted sum

      sum over s of (exp (x s - M) / L) * v s,   M the largest score,   L = sum over s of exp (x s - M).

  Two arrangements of that one number are stated here.  `wholeOut` normalises each weight first and sums over the
  whole sequence axis.  `halvesOut` goes over the axis in two halves with a running maximum: the first half is
  summed against its own maximum mA, the second against mB = max mA (its own maximum), the first half's sums are
  rescaled by exp (mA - mB), and one division by the total weight comes last.  They agree when every score and
  value is a real number (the law exp (mA - mB) * exp (x - mA) = exp (x - mB), and a quotient of a finite sum by a
  nonzero real taken term by term); at an infinite score they need not, so the agreement is proved under finiteness,
  in another module.
-/
import Idealize.ShloMosaic.PureOps.Ideal
import Idealize.ShloMosaic.Lib.ValueIdx

noncomputable section

namespace Cert.AttnPool

open Idealize.ShloMosaic Idealize.ShloMosaic.ValueIdx

/-- Position r of the first half of the sequence axis. -/
def lo (r : Fin 2048) : Fin 4096 := ⟨r.val, by have := r.isLt; omega⟩
/-- Position r of the second half of the sequence axis. -/
def hi (r : Fin 2048) : Fin 4096 := ⟨2048 + r.val, by have := r.isLt; omega⟩

/-- The score of position s for batch b and query row c: the query row against the hidden row. -/
def score (H : Fin 16 → Fin 4096 → Fin 1024 → EReal) (Q : Fin 64 → Fin 1024 → EReal)
    (b : Fin 16) (c : Fin 64) (s : Fin 4096) : EReal :=
  ∑ k : Fin 1024, Q c k * H b s k

/-- The softmax-weighted sum of v under the scores x, each weight normalised before the sum:
    the maximum is taken from minus infinity, the total weight from zero. -/
def wholeOut (x v : Fin 4096 → EReal) : EReal :=
  ∑ s : Fin 4096,
    Ideal.div (Ideal.exp (x s - max ⊥ (Finset.univ.fold max ⊥ x)))
      (0 + ∑ s' : Fin 4096, Ideal.exp (x s' - max ⊥ (Finset.univ.fold max ⊥ x))) * v s

/-- The same number taken over the two halves of the axis with a running maximum, divided once at the end. -/
def halvesOut (xA xB vA vB : Fin 2048 → EReal) : EReal :=
  Ideal.div
    (Ideal.exp (Finset.univ.fold max ⊥ xA - max (Finset.univ.fold max ⊥ xA) (Finset.univ.fold max ⊥ xB))
        * (∑ r : Fin 2048, Ideal.exp (xA r - Finset.univ.fold max ⊥ xA) * vA r)
      + ∑ r : Fin 2048, Ideal.exp (xB r - max (Finset.univ.fold max ⊥ xA) (Finset.univ.fold max ⊥ xB)) * vB r)
    (Ideal.exp (Finset.univ.fold max ⊥ xA - max (Finset.univ.fold max ⊥ xA) (Finset.univ.fold max ⊥ xB))
        * (∑ r : Fin 2048, Ideal.exp (xA r - Finset.univ.fold max ⊥ xA))
      + ∑ r : Fin 2048, Ideal.exp (xB r - max (Finset.univ.fold max ⊥ xA) (Finset.univ.fold max ⊥ xB)))

/-- The pooled entry (b, c, h) in the first arrangement. -/
def refOut (H : Fin 16 → Fin 4096 → Fin 1024 → EReal) (Q : Fin 64 → Fin 1024 → EReal)
    (b : Fin 16) (c : Fin 64) (h : Fin 1024) : EReal :=
  wholeOut (score H Q b c) (fun s => H b s h)

/-- The pooled entry (b, c, h) in the second arrangement. -/
def kerOut (H : Fin 16 → Fin 4096 → Fin 1024 → EReal) (Q : Fin 64 → Fin 1024 → EReal)
    (b : Fin 16) (c : Fin 64) (h : Fin 1024) : EReal :=
  halvesOut (fun r => score H Q b c (lo r)) (fun r => score H Q b c (hi r))
    (fun r => H b (lo r) h) (fun r => H b (hi r) h)

/-- A [16, 4096, 1024] array by its three coordinates. -/
def cur3 (X : (⟨3, ![16, 4096, 1024]⟩ : Shape).Idx → EReal) : Fin 16 → Fin 4096 → Fin 1024 → EReal :=
  fun b s k => X (ix3 b s k)
/-- A [64, 1024] array by its two coordinates. -/
def cur2 (W : (⟨2, ![64, 1024]⟩ : Shape).Idx → EReal) : Fin 64 → Fin 1024 → EReal :=
  fun c k => W (ix2 c k)

/-- The batch, query row and feature of entry i of the flattened [16, 64 * 1024] result. -/
def bOf (i : (⟨2, ![16, 65536]⟩ : Shape).Idx) : Fin 16 := ⟨(i 0).val, (i 0).isLt⟩
def cOf (i : (⟨2, ![16, 65536]⟩ : Shape).Idx) : Fin 64 :=
  ⟨(i 1).val / 1024, by have h : (i 1).val < 65536 := (i 1).isLt; omega⟩
def hOf (i : (⟨2, ![16, 65536]⟩ : Shape).Idx) : Fin 1024 := ⟨(i 1).val % 1024, Nat.mod_lt _ (by decide)⟩

/-- The bit pattern of minus infinity is the bottom of the extended reals; the zero pattern is zero. -/
theorem ofBits_neg_inf : Ideal.ofBits .f32 0xFF800000#32 = ⊥ := by simp [Ideal.ofBits, Ideal.ieee]
theorem ofBits_zero : Ideal.ofBits .f32 0x00000000#32 = 0 := by simp [Ideal.ofBits, Ideal.ieee]

end Cert.AttnPool

end
-- ==== Proof.Softmax.lean ====
/-
  The two arrangements of the softmax-weighted sum agree on real scores and values.

  Every score x s and value v s being a real number, each ingredient of both arrangements is the image of a real
  number in the extended reals: the running maxima are the (real) largest scores, differences, products, sums and
  exponentials of images are images, and a quotient by a positive real total weight is the product with its
  reciprocal.  Both arrangements are therefore images of real expressions, and those are equal by
  exp (mA - M) * exp (x - mA) = exp (x - M), the split of a sum over the whole axis into its two halves, and
  (sum of e s * v s) * (1 / L) = sum of (e s * (1 / L)) * v s.
-/
import proofs.«413821_j2937757630770_3_alg».proof.Proof.Spec
import Mathlib.Algebra.BigOperators.Fin
import Mathlib.Data.Finset.Fold
import Mathlib.Data.Finset.Lattice.Fold
import Mathlib.Analysis.SpecialFunctions.Exp

noncomputable section

namespace Cert.AttnPool

open Idealize.ShloMosaic

/-! ### Images of reals in the extended reals -/

/-- A finite sum of images of reals is the image of the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum from minus infinity of images of reals over a nonempty finite set is the image of the largest. -/
theorem fold_max_coe {ι : Type*} (s : Finset ι) (hs : s.Nonempty) (f : ι → ℝ) :
    s.fold max ⊥ (fun i => ((f i : ℝ) : EReal)) = ((s.sup' hs f : ℝ) : EReal) := by
  apply le_antisymm
  · rw [Finset.fold_max_le]
    exact ⟨bot_le, fun i hi => EReal.coe_le_coe_iff.2 (Finset.le_sup' f hi)⟩
  · obtain ⟨i, hi, h⟩ := Finset.exists_mem_eq_sup' hs f
    rw [Finset.le_fold_max]
    exact Or.inr ⟨i, hi, le_of_eq (by rw [h])⟩

/-- The image of the larger of two reals is the larger of the images. -/
theorem coe_max (a b : ℝ) : ((max a b : ℝ) : EReal) = max (a : EReal) (b : EReal) :=
  EReal.coe_strictMono.monotone.map_max

/-! ### The two halves cover the axis -/

/-- A sum over the whole axis is the sum over the first half plus the sum over the second half. -/
theorem sum_halves (f : Fin 4096 → ℝ) :
    ∑ s : Fin 4096, f s = ∑ r : Fin 2048, f (lo r) + ∑ r : Fin 2048, f (hi r) :=
  Fin.sum_univ_add (a := 2048) (b := 2048) f

/-- Every position lies in one of the two halves. -/
theorem lo_or_hi (s : Fin 4096) : (∃ r, s = lo r) ∨ (∃ r, s = hi r) := by
  by_cases h : s.val < 2048
  · exact Or.inl ⟨⟨s.val, h⟩, Fin.ext rfl⟩
  · refine Or.inr ⟨⟨s.val - 2048, by have := s.isLt; omega⟩, Fin.ext ?_⟩
    show s.val = 2048 + (s.val - 2048)
    omega

/-- The largest score over the whole axis is the larger of the largest scores of the two halves. -/
theorem sup_halves (x : Fin 4096 → ℝ) :
    Finset.univ.sup' Finset.univ_nonempty x
      = max (Finset.univ.sup' Finset.univ_nonempty (fun r => x (lo r)))
          (Finset.univ.sup' Finset.univ_nonempty (fun r => x (hi r))) := by
  apply le_antisymm
  · rw [Finset.sup'_le_iff]
    intro s _
    rcases lo_or_hi s with ⟨r, rfl⟩ | ⟨r, rfl⟩
    · exact le_max_of_le_left (Finset.le_sup' (fun r => x (lo r)) (Finset.mem_univ r))
    · exact le_max_of_le_right (Finset.le_sup' (fun r => x (hi r)) (Finset.mem_univ r))
  · apply max_le
    · rw [Finset.sup'_le_iff]
      exact fun r _ => Finset.le_sup' x (Finset.mem_univ (lo r))
    · rw [Finset.sup'_le_iff]
      exact fun r _ => Finset.le_sup' x (Finset.mem_univ (hi r))

/-! ### Each arrangement as the image of a real expression -/

/-- The whole-axis arrangement on real scores with largest score M. -/
theorem wholeOut_coe (x v : Fin 4096 → ℝ) (M : ℝ)
    (hM : Finset.univ.fold max ⊥ (fun s => ((x s : ℝ) : EReal)) = (M : EReal)) :
    wholeOut (fun s => ((x s : ℝ) : EReal)) (fun s => ((v s : ℝ) : EReal))
      = ((∑ s : Fin 4096, Real.exp (x s - M) * (1 / ∑ s' : Fin 4096, Real.exp (x s' - M)) * v s : ℝ) : EReal) := by
  have hL : (∑ s' : Fin 4096, Real.exp (x s' - M)) ≠ 0 :=
    (Finset.sum_pos (fun i _ => Real.exp_pos _) Finset.univ_nonempty).ne'
  have hexp : ∀ s : Fin 4096, Ideal.exp ((x s : EReal) - (M : EReal)) = ((Real.exp (x s - M) : ℝ) : EReal) :=
    fun s => by rw [← EReal.coe_sub, Ideal.exp_coe]
  unfold wholeOut
  rw [hM, max_eq_right (bot_le : (⊥ : EReal) ≤ (M : EReal))]
  simp only [hexp, zero_add, coe_sum, Ideal.div_coe hL, ← EReal.coe_mul]

/-- The two-halves arrangement on real scores with largest scores mA and cB of the halves. -/
theorem halvesOut_coe (xA xB vA vB : Fin 2048 → ℝ) (mA cB : ℝ)
    (hA : Finset.univ.fold max ⊥ (fun r => ((xA r : ℝ) : EReal)) = (mA : EReal))
    (hB : Finset.univ.fold max ⊥ (fun r => ((xB r : ℝ) : EReal)) = (cB : EReal)) :
    halvesOut (fun r => ((xA r : ℝ) : EReal)) (fun r => ((xB r : ℝ) : EReal))
        (fun r => ((vA r : ℝ) : EReal)) (fun r => ((vB r : ℝ) : EReal))
      = (((Real.exp (mA - max mA cB) * (∑ r : Fin 2048, Real.exp (xA r - mA) * vA r)
            + ∑ r : Fin 2048, Real.exp (xB r - max mA cB) * vB r)
          * (1 / (Real.exp (mA - max mA cB) * (∑ r : Fin 2048, Real.exp (xA r - mA))
            + ∑ r : Fin 2048, Real.exp (xB r - max mA cB))) : ℝ) : EReal) := by
  have hD : (Real.exp (mA - max mA cB) * (∑ r : Fin 2048, Real.exp (xA r - mA))
      + ∑ r : Fin 2048, Real.exp (xB r - max mA cB)) ≠ 0 := by
    have h1 : 0 < ∑ r : Fin 2048, Real.exp (xA r - mA) :=
      Finset.sum_pos (fun i _ => Real.exp_pos _) Finset.univ_nonempty
    have h2 : 0 < ∑ r : Fin 2048, Real.exp (xB r - max mA cB) :=
      Finset.sum_pos (fun i _ => Real.exp_pos _) Finset.univ_nonempty
    exact (add_pos (mul_pos (Real.exp_pos _) h1) h2).ne'
  unfold halvesOut
  rw [hA, hB, ← coe_max]
  simp only [← EReal.coe_sub, Ideal.exp_coe, ← EReal.coe_mul, coe_sum, ← EReal.coe_add]
  rw [Ideal.div_coe hD, ← EReal.coe_mul]

/-! ### The agreement -/

/-- On real scores and values the two-halves running-maximum form is the whole-axis form. -/
theorem halvesOut_eq_wholeOut (x v : Fin 4096 → ℝ) :
    halvesOut (fun r => ((x (lo r) : ℝ) : EReal)) (fun r => ((x (hi r) : ℝ) : EReal))
        (fun r => ((v (lo r) : ℝ) : EReal)) (fun r => ((v (hi r) : ℝ) : EReal))
      = wholeOut (fun s => ((x s : ℝ) : EReal)) (fun s => ((v s : ℝ) : EReal)) := by
  rw [halvesOut_coe (fun r => x (lo r)) (fun r => x (hi r)) (fun r => v (lo r)) (fun r => v (hi r)) _ _
        (fold_max_coe Finset.univ Finset.univ_nonempty (fun r => x (lo r)))
        (fold_max_coe Finset.univ Finset.univ_nonempty (fun r => x (hi r))),
      wholeOut_coe x v _ (fold_max_coe Finset.univ Finset.univ_nonempty x),
      sup_halves x]
  generalize Finset.univ.sup' Finset.univ_nonempty (fun r => x (lo r)) = mA
  generalize Finset.univ.sup' Finset.univ_nonempty (fun r => x (hi r)) = cB
  -- exp (mA - M) * (sum over the first half against mA) is the sum over the first half against M
  have e1 : ∀ g : Fin 2048 → ℝ,
      Real.exp (mA - max mA cB) * (∑ r : Fin 2048, Real.exp (x (lo r) - mA) * g r)
        = ∑ r : Fin 2048, Real.exp (x (lo r) - max mA cB) * g r := by
    intro g
    rw [Finset.mul_sum]
    refine Finset.sum_congr rfl (fun r _ => ?_)
    rw [← mul_assoc, ← Real.exp_add]
    congr 2
    ring
  have e1' : Real.exp (mA - max mA cB) * (∑ r : Fin 2048, Real.exp (x (lo r) - mA))
        = ∑ r : Fin 2048, Real.exp (x (lo r) - max mA cB) := by
    have := e1 (fun _ => 1)
    simpa only [mul_one] using this
  rw [e1, e1', ← sum_halves (fun s => Real.exp (x s - max mA cB) * v s),
    ← sum_halves (fun s => Real.exp (x s - max mA cB)), Finset.sum_mul]
  congr 1
  refine Finset.sum_congr rfl (fun s _ => ?_)
  ring

/-- The score of images of reals is the image of the real score. -/
theorem score_coe (Hr : Fin 16 → Fin 4096 → Fin 1024 → ℝ) (Qr : Fin 64 → Fin 1024 → ℝ)
    (b : Fin 16) (c : Fin 64) (s : Fin 4096) :
    score (fun b s k => ((Hr b s k : ℝ) : EReal)) (fun c k => ((Qr c k : ℝ) : EReal)) b c s
      = ((∑ k : Fin 1024, Qr c k * Hr b s k : ℝ) : EReal) := by
  unfold score
  simp only [← EReal.coe_mul, coe_sum]

/-- On hidden states and queries that are real numbers, the two-halves running-maximum form of a pooled entry is the
    whole-axis form. -/
theorem kerOut_eq_refOut (Hr : Fin 16 → Fin 4096 → Fin 1024 → ℝ) (Qr : Fin 64 → Fin 1024 → ℝ)
    (b : Fin 16) (c : Fin 64) (h : Fin 1024) :
    kerOut (fun b s k => ((Hr b s k : ℝ) : EReal)) (fun c k => ((Qr c k : ℝ) : EReal)) b c h
      = refOut (fun b s k => ((Hr b s k : ℝ) : EReal)) (fun c k => ((Qr c k : ℝ) : EReal)) b c h := by
  unfold kerOut refOut
  simp only [score_coe]
  exact halvesOut_eq_wholeOut (fun s => ∑ k : Fin 1024, Qr c k * Hr b s k) (fun s => Hr b s h)

end Cert.AttnPool

end
-- ==== Proof.RefValue.lean ====
/-
  The reference's result, read at one entry of the flattened [16, 64 * 1024] array.

  The stages are read one at a time at an index built from its coordinates: the scores (a contraction over the
  feature axis, transposed), their maximum over the sequence axis, the shifted exponentials, their sum, the
  normalised weights, and the weighted sum of the hidden states; the last step identifies the flattened
  entry's three coordinates.
-/
import proofs.«413821_j2937757630770_3_alg».proof.Proof.Spec
import proofs.«413821_j2937757630770_3_alg».proof.Proof.Gen.ReferenceIdeal.Read

noncomputable section

namespace Cert.ReferenceIdeal.RefValue

open Cert.ReferenceIdeal Cert.ReferenceIdeal.Gen Idealize.ShloMosaic Idealize.ShloMosaic.ValueIdx Cert.AttnPool

section Stages

variable (x0 : S16x4096x1024.Idx → EReal) (x1 : S64x1024.Idx → EReal)

/-- The transposed contraction at (b, c, s) is the score of position s for batch b and query row c. -/
theorem v1_at (b : Fin 16) (c : Fin 64) (s : Fin 4096) :
    Read.val_main_v1 (F := Ideal) x0 x1 (ix3 b c s) = score (cur3 x0) (cur2 x1) b c s := by
  rw [Read.val_main_v1_apply, Read.val_main_v0_apply]
  unfold score cur3 cur2
  refine Finset.sum_congr rfl fun k _ => ?_
  have el : Read.lidx_main_v0 (Read.idx_main_v1 (ix3 b c s)) k = ix2 c k :=
    funext fun a => match a with | ⟨0, _⟩ => rfl | ⟨1, _⟩ => rfl
  have er : Read.ridx_main_v0 (Read.idx_main_v1 (ix3 b c s)) k = ix3 b s k :=
    funext fun a => match a with | ⟨0, _⟩ => rfl | ⟨1, _⟩ => rfl | ⟨2, _⟩ => rfl
  rw [el, er]

/-- The maximum stage at (b, c) is the fold of max from minus infinity over the scores of that row. -/
theorem v2_at (b : Fin 16) (c : Fin 64) :
    Read.val_main_v2 (F := Ideal) x0 x1 (ix2 b c) = Finset.univ.fold max ⊥ (score (cur3 x0) (cur2 x1) b c) := by
  unfold Read.val_main_v2
  rw [Host.reduce_eq_fold_single FloatOps.maximumf _ _ reducesTo_S16x64x4096_S16x64_d2 (by decide) h_S_]
  rw [Read.val_main_cst_apply, Ideal.ofBits_def, ofBits_neg_inf]
  show (Finset.univ : Finset (Fin 4096)).fold max ⊥ _ = _
  congr 1
  funext s
  refine Eq.trans (congrArg (Read.val_main_v1 (F := Ideal) x0 x1) ?_) (v1_at x0 x1 b c s)
  exact funext fun a => Fin.ext (by match a with | ⟨0, _⟩ => rfl | ⟨1, _⟩ => rfl | ⟨2, _⟩ => rfl)

/-- The maximum against the broadcast minus infinity, at (b, c). -/
theorem v4_at (b : Fin 16) (c : Fin 64) :
    Read.val_main_v4 (F := Ideal) x0 x1 (ix2 b c)
      = max ⊥ (Finset.univ.fold max ⊥ (score (cur3 x0) (cur2 x1) b c)) := by
  rw [Read.val_main_v4_apply, Read.val_main_v3_apply, Read.val_main_cst_0_apply, v2_at,
    Ideal.maximumf_def, Ideal.ofBits_def, ofBits_neg_inf]

/-- The shift broadcast along the sequence axis, at (b, c, s). -/
theorem v6_at (b : Fin 16) (c : Fin 64) (s : Fin 4096) :
    Read.val_main_v6 (F := Ideal) x0 x1 (ix3 b c s)
      = max ⊥ (Finset.univ.fold max ⊥ (score (cur3 x0) (cur2 x1) b c)) := by
  rw [Read.val_main_v6_apply, Read.val_main_v5_apply]
  have e : Read.idx_main_v5 (Read.idx_main_v6 (ix3 b c s)) = ix2 b c :=
    funext fun a => match a with | ⟨0, _⟩ => rfl | ⟨1, _⟩ => rfl
  rw [e, v4_at]

/-- The shifted exponential at (b, c, s). -/
theorem v8_at (b : Fin 16) (c : Fin 64) (s : Fin 4096) :
    Read.val_main_v8 (F := Ideal) x0 x1 (ix3 b c s)
      = Ideal.exp (score (cur3 x0) (cur2 x1) b c s
          - max ⊥ (Finset.univ.fold max ⊥ (score (cur3 x0) (cur2 x1) b c))) := by
  rw [Read.val_main_v8_apply, Read.val_main_v7_apply, v1_at, v6_at, Ideal.hostUnary_exp_def, Ideal.subf_def]

/-- The total weight at (b, c): zero plus the sum of the shifted exponentials over the sequence axis. -/
theorem v9_at (b : Fin 16) (c : Fin 64) :
    Read.val_main_v9 (F := Ideal) x0 x1 (ix2 b c)
      = 0 + ∑ s' : Fin 4096, Ideal.exp (score (cur3 x0) (cur2 x1) b c s'
          - max ⊥ (Finset.univ.fold max ⊥ (score (cur3 x0) (cur2 x1) b c))) := by
  rw [Read.val_main_v9_apply, Read.val_main_cst_1_apply, Ideal.ofBits_def, ofBits_zero]
  refine congrArg (0 + ·) (Finset.sum_congr rfl fun k _ => ?_)
  have e : Read.idx_main_v9 (ix2 b c) k = ix3 b c k :=
    funext fun a => match a with | ⟨0, _⟩ => rfl | ⟨1, _⟩ => rfl | ⟨2, _⟩ => rfl
  rw [e, v8_at]

/-- The normalised weight at (b, c, s). -/
theorem v12_at (b : Fin 16) (c : Fin 64) (s : Fin 4096) :
    Read.val_main_v12 (F := Ideal) x0 x1 (ix3 b c s)
      = Ideal.div
          (Ideal.exp (score (cur3 x0) (cur2 x1) b c s
            - max ⊥ (Finset.univ.fold max ⊥ (score (cur3 x0) (cur2 x1) b c))))
          (0 + ∑ s' : Fin 4096, Ideal.exp (score (cur3 x0) (cur2 x1) b c s'
            - max ⊥ (Finset.univ.fold max ⊥ (score (cur3 x0) (cur2 x1) b c)))) := by
  rw [Read.val_main_v12_apply, Read.val_main_v11_apply, Read.val_main_v10_apply]
  have e : Read.idx_main_v10 (Read.idx_main_v11 (ix3 b c s)) = ix2 b c :=
    funext fun a => match a with | ⟨0, _⟩ => rfl | ⟨1, _⟩ => rfl
  rw [e, v8_at, v9_at, Ideal.hostDivf_def]

end Stages

/-- Entry i of the reference's result is the whole-axis softmax-weighted sum for i's batch, query row and feature. -/
theorem ref_apply (x0 : S16x4096x1024.Idx → EReal) (x1 : S64x1024.Idx → EReal) (i : S16x65536.Idx) :
    Read.val_main_v14 (F := Ideal) x0 x1 i = refOut (cur3 x0) (cur2 x1) (bOf i) (cOf i) (hOf i) := by
  rw [Read.val_main_v14_apply, Read.val_main_v13_apply]
  unfold refOut wholeOut
  refine Finset.sum_congr rfl fun s _ => ?_
  have h0 : (i 0).val < 16 := (i 0).isLt
  have h1 : (i 1).val < 65536 := (i 1).isLt
  -- the flattened entry (i 0) * 65536 + (i 1) splits as batch (i 0), query row (i 1) / 1024, feature (i 1) % 1024
  have el : Read.lidx_main_v13 (Read.idx_main_v14 i) s = ix3 (bOf i) (cOf i) s :=
    funext fun a => Fin.ext (by
      match a with
      | ⟨0, _⟩ => show ((i 0).val * 65536 + (i 1).val) / 65536 = (i 0).val; omega
      | ⟨1, _⟩ => show ((i 0).val * 65536 + (i 1).val) / 1024 % 64 = (i 1).val / 1024; omega
      | ⟨2, _⟩ => rfl)
  have er : Read.ridx_main_v13 (Read.idx_main_v14 i) s = ix3 (bOf i) s (hOf i) :=
    funext fun a => Fin.ext (by
      match a with
      | ⟨0, _⟩ => show ((i 0).val * 65536 + (i 1).val) / 65536 = (i 0).val; omega
      | ⟨1, _⟩ => rfl
      | ⟨2, _⟩ => show ((i 0).val * 65536 + (i 1).val) % 1024 = (i 1).val % 1024; omega)
  rw [el, er, v12_at]
  rfl

end Cert.ReferenceIdeal.RefValue

end
-- ==== Proof.Finite.lean ====
/-
  Under the precondition every entry of both inputs is a real number.

  The predicate is the conjunction of two tests, one per array: every entry's absolute value is below plus
  infinity.  An extended real with that property is neither infinity, so it is the image of its real part.
-/
import proofs.«413821_j2937757630770_3_alg».proof.Proof.Spec
import proofs.«413821_j2937757630770_3_alg».proof.Pre_finite_inputs
import Idealize.ShloMosaic.Lib.ReduceAll

noncomputable section

namespace Cert.AttnPool

open Idealize.ShloMosaic Idealize.ShloMosaic.ValueIdx

namespace Finite

/-- The scalar shape has one index. -/
instance scalarIdx_subsingleton : Subsingleton Cert.Pre_finite_inputs.S_.Idx := ⟨fun a b => funext fun d => d.elim0⟩

/-- The bit pattern of plus infinity is the top of the extended reals. -/
theorem ofBits_pos_inf : Ideal.ofBits .f32 0x7F800000#32 = ⊤ := by simp [Ideal.ofBits, Ideal.ieee]

/-- An extended real whose absolute value is below plus infinity is the image of its real part. -/
theorem coe_toReal_of_abs_lt_top {x : EReal} (h : max x (-x) < ⊤) : ((x.toReal : ℝ) : EReal) = x := by
  refine EReal.coe_toReal ?_ ?_
  · intro e; rw [e] at h; simp at h
  · intro e; rw [e] at h; simp at h

/-- A one-bit word made from a truth value is one exactly when the truth value is true. -/
theorem ofBool_eq_one_iff (b : Bool) : BitVec.ofBool b = 1#1 ↔ b = true := by cases b <;> decide

/-- The comparison of the precondition, read at one entry: it is one exactly when the entry's absolute value
    is below plus infinity. -/
theorem abs_lt_top_of_cmp {x : EReal}
    (h : FloatOps.cmpf (F := Ideal) (φ := .f32) .olt (FloatOps.hostAbsf (F := Ideal) (φ := .f32) x)
      (FloatOps.ofBits (F := Ideal) .f32 0x7F800000#32) = 1#1) : max x (-x) < ⊤ := by
  have e : Ideal.cmp .olt (max x (-x)) (Ideal.ofBits .f32 0x7F800000#32) = 1#1 := h
  rw [ofBits_pos_inf] at e
  simpa [Ideal.cmp, ofBool_eq_one_iff] using e

end Finite

open Finite

/-- If the finiteness predicate of the two input arrays is all ones, both arrays are arrays of real numbers. -/
theorem real_of_pre [Cert.Pre_finite_inputs.Facts] (x0 : Cert.Pre_finite_inputs.S16x4096x1024.Idx → EReal)
    (x1 : Cert.Pre_finite_inputs.S64x1024.Idx → EReal)
    (hpre : Cert.Pre_finite_inputs.fn (F := Ideal) x0 x1 = fun _ => 1#1) :
    ∃ (Hr : Fin 16 → Fin 4096 → Fin 1024 → ℝ) (Qr : Fin 64 → Fin 1024 → ℝ),
      cur3 x0 = (fun b s k => ((Hr b s k : ℝ) : EReal)) ∧ cur2 x1 = (fun c k => ((Qr c k : ℝ) : EReal)) := by
  have h := congrFun hpre ValueIdx.ix0
  dsimp only [Cert.Pre_finite_inputs.fn] at h
  obtain ⟨hA, hB⟩ := IntOp.andi_eq_one.1 h
  have fA : ∀ i, max (x0 i) (-(x0 i)) < ⊤ := fun i =>
    abs_lt_top_of_cmp (Host.reduce_andi_all _ _ _ _ _ hA i)
  have fB : ∀ i, max (x1 i) (-(x1 i)) < ⊤ := fun i =>
    abs_lt_top_of_cmp (Host.reduce_andi_all _ _ _ _ _ hB i)
  refine ⟨fun b s k => (x0 (ix3 b s k)).toReal, fun c k => (x1 (ix2 c k)).toReal, ?_, ?_⟩
  · funext b s k
    exact (coe_toReal_of_abs_lt_top (fA _)).symm
  · funext c k
    exact (coe_toReal_of_abs_lt_top (fB _)).symm

end Cert.AttnPool

end
-- ==== Proof.Pieces.lean ====
/-
  What one grid point leaves behind, as values.

  A grid point (b, s) of the kernel sees one half of batch b's sequence axis: a block of 2048 hidden rows.  It
  first rewrites the block, 512 rows at a time, into a scratch tile in the narrower float format, and reads the tile
  back whole; the four stores tile the 2048 rows, so the tile read back is the block with its unit axis dropped,
  every entry changed of format (`tile`).  From the tile T and the query block q it forms the scores q · Tᵀ and
  their row maxima.  At the first half (s = 0) it stores the row maxima, the row sums of exp (score - maximum), and
  the weighted rows exp (…) · T into three scratch buffers.  At the second half (s = 1) it reads those three back
  (m, l, acc), takes the new maxima max m (own maxima), rescales l and acc by exp (m - new maxima), adds this half's
  sums, stores them, and finally writes acc / l (read back after the stores) to the output block.
  The lemmas below say exactly this of the contents each case leaves, for any float instance.
-/
import proofs.«413821_j2937757630770_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem casts_drop : S1x2048x1024.ShapeCasts S2048x1024 := by decide

/-- A block of hidden rows with its leading unit axis dropped. -/
def rows (x0 : Vec F S1x2048x1024 .f32) : Vec F S2048x1024 .f32 := shapeCast S2048x1024 x0 casts_drop

/-- The tile the point works on: the block's rows in the narrower format. -/
def tile (x0 : Vec F S1x2048x1024 .f32) : Vec F S2048x1024 .bf16 := truncf .bf16 (rows x0) bitsLt_bf16_f32

/-- Four stores of 512 rows each, every one the format change of the rows it covers, read back whole:
    the format change of all 2048 rows. -/
theorem readCov_chunks (v : View sig .tc .vmem S2048x1024 .bf16) (X : Vec F S2048x1024 .f32)
    (p3 : ∀ a, (![1536, 0] : Fin 2 → Nat) a + (![512, 1024] : Fin 2 → Nat) a ≤ S2048x1024.size a)
    (p2 : ∀ a, (![1024, 0] : Fin 2 → Nat) a + S512x1024.size a ≤ S2048x1024.size a)
    (p1 : ∀ a, (![512, 0] : Fin 2 → Nat) a + S512x1024.size a ≤ S2048x1024.size a)
    (p0 : ∀ a, (![0, 0] : Fin 2 → Nat) a + S512x1024.size a ≤ S2048x1024.size a)
    (pw : ∀ a, (![0, 0] : Fin 2 → Nat) a + (![2048, 1024] : Fin 2 → Nat) a ≤ S2048x1024.size a) :
    v.readCov (Val := Elt F)
        [⟨Rect.unit (s := S2048x1024) ![1536, 0] ![512, 1024] p3, k0_pay1 (View.ld X (Rect.unit (s := S2048x1024) ![1536, 0] ![512, 1024] p3))⟩,
         ⟨Rect.unit (s := S2048x1024) ![1024, 0] S512x1024.size p2, k0_pay17 (View.ld X (Rect.unit (s := S2048x1024) ![1024, 0] S512x1024.size p2))⟩,
         ⟨Rect.unit (s := S2048x1024) ![512, 0] S512x1024.size p1, k0_pay16 (View.ld X (Rect.unit (s := S2048x1024) ![512, 0] S512x1024.size p1))⟩,
         ⟨Rect.unit (s := S2048x1024) ![0, 0] S512x1024.size p0, k0_pay15 (View.ld X (Rect.unit (s := S2048x1024) ![0, 0] S512x1024.size p0))⟩]
        (Rect.unit (s := S2048x1024) ![0, 0] ![2048, 1024] pw).toLoadRect
      = truncf .bf16 X bitsLt_bf16_f32 := by
  have hcover : ∀ y : S2048x1024.Idx, ∃ pc ∈
      ([⟨Rect.unit (s := S2048x1024) ![1536, 0] ![512, 1024] p3, k0_pay1 (View.ld X (Rect.unit (s := S2048x1024) ![1536, 0] ![512, 1024] p3))⟩,
         ⟨Rect.unit (s := S2048x1024) ![1024, 0] S512x1024.size p2, k0_pay17 (View.ld X (Rect.unit (s := S2048x1024) ![1024, 0] S512x1024.size p2))⟩,
         ⟨Rect.unit (s := S2048x1024) ![512, 0] S512x1024.size p1, k0_pay16 (View.ld X (Rect.unit (s := S2048x1024) ![512, 0] S512x1024.size p1))⟩,
         ⟨Rect.unit (s := S2048x1024) ![0, 0] S512x1024.size p0, k0_pay15 (View.ld X (Rect.unit (s := S2048x1024) ![0, 0] S512x1024.size p0))⟩]
        : List (View.Piece (Elt F) S2048x1024 .bf16)), y ∈ pc.1.set :=
    fun y => View.cover_of_tiledL (s := S2048x1024) _ ![512, 1024] (by sl_kernel_rfl) y
  rw [View.readCov_eq_canon_ld v _ _ hcover, View.ld_unit_zero (S := S2048x1024) hz2]
  funext y
  refine View.canon_apply_of_pieces (truncf .bf16 X bitsLt_bf16_f32) _ ?_ y (hcover y)
  intro p hp
  simp only [List.mem_cons, List.mem_nil_iff, or_false] at hp
  rcases hp with rfl | rfl | rfl | rfl
  · intro x; dsimp only; unfold k0_pay1; rw [shapeCast_self]; rfl
  · intro x; dsimp only; unfold k0_pay17; rw [shapeCast_self]; rfl
  · intro x; dsimp only; unfold k0_pay16; rw [shapeCast_self]; rfl
  · intro x; dsimp only; unfold k0_pay15; rw [shapeCast_self]; rfl

/-- A load from the block seen without its unit axis reads the block's rows at the rectangle's indices. -/
theorem readAt_rows (arg2 : Memref sig .tc .vmem S1x2048x1024 .f32) (harg2 : arg2.IsWhole) (x0 : Vec F S1x2048x1024 .f32)
    (inb : ∀ a, (![0, 0, 0] : Fin 3 → Nat) a + S1x2048x1024.size a ≤ S1x2048x1024.size a)
    (pf : ∀ a, (Rect.unit (s := S1x2048x1024) ![0, 0, 0] S1x2048x1024.size inb).stride a = 1)
    (r : Rect S2048x1024) :
    View.readAt (Elt F) ((arg2.slice (Rect.unit (s := S1x2048x1024) ![0, 0, 0] S1x2048x1024.size inb) pf).squeeze S2048x1024
        squeezes_S1x2048x1024_S2048x1024).view r.toLoadRect (harg2.unread x0) = View.ld (rows x0) r := by
  rw [View.readAt_eq_ld, Memref.read_squeeze_slice arg2 _ pf squeezes_S1x2048x1024_S2048x1024 casts_drop,
    View.readAt_eq_ld, harg2.read_unread, View.ld_unit_zero (S := S1x2048x1024) hz3]
  rfl

/-- The scratch tile read back whole after the four 512-row stores of the format-changed block rows: the tile. -/
theorem tile_readback (arg2 : Memref sig .tc .vmem S1x2048x1024 .f32) (harg2 : arg2.IsWhole) (v : View sig .tc .vmem S2048x1024 .bf16)
    (x0 : Vec F S1x2048x1024 .f32)
    (inb : ∀ a, (![0, 0, 0] : Fin 3 → Nat) a + S1x2048x1024.size a ≤ S1x2048x1024.size a)
    (pf : ∀ a, (Rect.unit (s := S1x2048x1024) ![0, 0, 0] S1x2048x1024.size inb).stride a = 1)
    (p3 : ∀ a, (![1536, 0] : Fin 2 → Nat) a + (![512, 1024] : Fin 2 → Nat) a ≤ S2048x1024.size a)
    (p2 : ∀ a, (![1024, 0] : Fin 2 → Nat) a + S512x1024.size a ≤ S2048x1024.size a)
    (p1 : ∀ a, (![512, 0] : Fin 2 → Nat) a + S512x1024.size a ≤ S2048x1024.size a)
    (p0 : ∀ a, (![0, 0] : Fin 2 → Nat) a + S512x1024.size a ≤ S2048x1024.size a)
    (pw : ∀ a, (![0, 0] : Fin 2 → Nat) a + (![2048, 1024] : Fin 2 → Nat) a ≤ S2048x1024.size a) :
    v.readCov (Val := Elt F)
        [⟨Rect.unit (s := S2048x1024) ![1536, 0] ![512, 1024] p3, k0_pay1 (View.readAt (Elt F) ((arg2.slice (Rect.unit (s := S1x2048x1024) ![0, 0, 0] S1x2048x1024.size inb) pf).squeeze S2048x1024 squeezes_S1x2048x1024_S2048x1024).view (Rect.unit (s := S2048x1024) ![1536, 0] ![512, 1024] p3).toLoadRect (harg2.unread x0))⟩,
         ⟨Rect.unit (s := S2048x1024) ![1024, 0] S512x1024.size p2, k0_pay17 (View.readAt (Elt F) ((arg2.slice (Rect.unit (s := S1x2048x1024) ![0, 0, 0] S1x2048x1024.size inb) pf).squeeze S2048x1024 squeezes_S1x2048x1024_S2048x1024).view (Rect.unit (s := S2048x1024) ![1024, 0] S512x1024.size p2).toLoadRect (harg2.unread x0))⟩,
         ⟨Rect.unit (s := S2048x1024) ![512, 0] S512x1024.size p1, k0_pay16 (View.readAt (Elt F) ((arg2.slice (Rect.unit (s := S1x2048x1024) ![0, 0, 0] S1x2048x1024.size inb) pf).squeeze S2048x1024 squeezes_S1x2048x1024_S2048x1024).view (Rect.unit (s := S2048x1024) ![512, 0] S512x1024.size p1).toLoadRect (harg2.unread x0))⟩,
         ⟨Rect.unit (s := S2048x1024) ![0, 0] S512x1024.size p0, k0_pay15 (View.readAt (Elt F) ((arg2.slice (Rect.unit (s := S1x2048x1024) ![0, 0, 0] S1x2048x1024.size inb) pf).squeeze S2048x1024 squeezes_S1x2048x1024_S2048x1024).view (Rect.unit (s := S2048x1024) ![0, 0] S512x1024.size p0).toLoadRect (harg2.unread x0))⟩]
        (Rect.unit (s := S2048x1024) ![0, 0] ![2048, 1024] pw).toLoadRect
      = tile x0 := by
  rw [readAt_rows arg2 harg2 x0 inb pf, readAt_rows arg2 harg2 x0 inb pf, readAt_rows arg2 harg2 x0 inb pf, readAt_rows arg2 harg2 x0 inb pf]
  exact readCov_chunks v (rows x0) p3 p2 p1 p0 pw

/-- A load through the whole-shape rectangle of a whole buffer reads its contents. -/
theorem readAt_whole {S : Shape} {e : EltTy} (M : Memref sig .tc .vmem S e) (hM : M.IsWhole) (X : Vec F S e)
    {off : Fin S.rank → Nat} (h : off = fun _ => 0) (inb : ∀ a, off a + S.size a ≤ S.size a) :
    View.readAt (Elt F) M.view (Rect.unit off S.size inb).toLoadRect (hM.unread X) = X := by
  rw [View.readAt_eq_ld, hM.read_unread, View.ld_unit_zero h]

/-! ## The first half of a batch: what the three carried buffers are left holding -/

/-- The row maxima of the scores. -/
theorem firstMax (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1024 .f32) (harg7 : arg7.IsWhole) (arg8 : Memref sig .tc .vmem S2048x1024 .bf16) (harg8 : arg8.IsWhole) (hc0 : cond0_0 i) (hc1 : ¬cond0_1 i) (hc2 : ¬cond0_2 i) (x0 : Vec F S1x2048x1024 .f32) (x1 : Vec F S64x1024 .bf16) :
    sout0_A_0 c i arg2 harg2 arg3 harg3 arg4 harg4 arg5 harg5 arg6 harg6 arg7 harg7 arg8 harg8 hc0 hc1 hc2 x0 x1 = k0_pay4 (tile x0) x1 := by
  unfold sout0_A_0
  rw [View.read_writes_eq_canon _ _ _ (scover0_A_0 c i arg2 harg2 arg3 harg3 arg4 harg4 arg5 harg5 arg6 harg6 arg7 harg7 arg8 harg8 hc0 hc1 hc2 x0 x1)]
  unfold kernelRun0_A
  dsimp only
  sl_unfold_words
  rw [View.canon_unit_zero hz2]
  exact congrArg₂ k0_pay4 (tile_readback arg2 harg2 arg8.view x0 _ _ _ _ _ _ _) (readAt_whole arg3 harg3 x1 hz2 _)

/-- The row sums of the exponentials. -/
theorem firstSum (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1024 .f32) (harg7 : arg7.IsWhole) (arg8 : Memref sig .tc .vmem S2048x1024 .bf16) (harg8 : arg8.IsWhole) (hc0 : cond0_0 i) (hc1 : ¬cond0_1 i) (hc2 : ¬cond0_2 i) (x0 : Vec F S1x2048x1024 .f32) (x1 : Vec F S64x1024 .bf16) :
    sout0_A_1 c i arg2 harg2 arg3 harg3 arg4 harg4 arg5 harg5 arg6 harg6 arg7 harg7 arg8 harg8 hc0 hc1 hc2 x0 x1 = k0_pay6 (tile x0) x1 := by
  unfold sout0_A_1
  rw [View.read_writes_eq_canon _ _ _ (scover0_A_1 c i arg2 harg2 arg3 harg3 arg4 harg4 arg5 harg5 arg6 harg6 arg7 harg7 arg8 harg8 hc0 hc1 hc2 x0 x1)]
  unfold kernelRun0_A
  dsimp only
  sl_unfold_words
  rw [View.canon_unit_zero hz2]
  exact congrArg₂ k0_pay6 (tile_readback arg2 harg2 arg8.view x0 _ _ _ _ _ _ _) (readAt_whole arg3 harg3 x1 hz2 _)

/-- The exponentials times the tile. -/
theorem firstAcc (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1024 .f32) (harg7 : arg7.IsWhole) (arg8 : Memref sig .tc .vmem S2048x1024 .bf16) (harg8 : arg8.IsWhole) (hc0 : cond0_0 i) (hc1 : ¬cond0_1 i) (hc2 : ¬cond0_2 i) (x0 : Vec F S1x2048x1024 .f32) (x1 : Vec F S64x1024 .bf16) :
    sout0_A_2 c i arg2 harg2 arg3 harg3 arg4 harg4 arg5 harg5 arg6 harg6 arg7 harg7 arg8 harg8 hc0 hc1 hc2 x0 x1 = k0_pay7 (tile x0) x1 := by
  unfold sout0_A_2
  rw [View.read_writes_eq_canon _ _ _ (scover0_A_2 c i arg2 harg2 arg3 harg3 arg4 harg4 arg5 harg5 arg6 harg6 arg7 harg7 arg8 harg8 hc0 hc1 hc2 x0 x1)]
  unfold kernelRun0_A
  dsimp only
  sl_unfold_words
  rw [View.canon_unit_zero hz2]
  exact congrArg₂ k0_pay7 (tile_readback arg2 harg2 arg8.view x0 _ _ _ _ _ _ _) (readAt_whole arg3 harg3 x1 hz2 _)

/-! ## The second half: the carried buffers updated from what the first half left (m, l, acc), and the output block -/

/-- The new maxima. -/
theorem secondMax (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1024 .f32) (harg7 : arg7.IsWhole) (arg8 : Memref sig .tc .vmem S2048x1024 .bf16) (harg8 : arg8.IsWhole) (hc0 : ¬cond0_0 i) (hc1 : cond0_1 i) (hc2 : cond0_2 i) (x0 : Vec F S1x2048x1024 .f32) (x1 : Vec F S64x1024 .bf16) (xs0 : Vec F S64x1 .f32) (xs1 : Vec F S64x1 .f32) (xs2 : Vec F S64x1024 .f32) :
    sout0_B_0 c i arg2 harg2 arg3 harg3 arg4 harg4 arg5 harg5 arg6 harg6 arg7 harg7 arg8 harg8 hc0 hc1 hc2 x0 x1 xs0 xs1 xs2 = k0_pay13 (tile x0) x1 xs0 := by
  unfold sout0_B_0
  rw [View.read_writes_eq_canon _ _ _ (scover0_B_0 c i arg2 harg2 arg3 harg3 arg4 harg4 arg5 harg5 arg6 harg6 arg7 harg7 arg8 harg8 hc0 hc1 hc2 x0 x1 xs0 xs1 xs2)]
  unfold kernelRun0_B
  dsimp only
  sl_unfold_words
  rw [View.canon_unit_zero hz2]
  exact congr (congrArg₂ k0_pay13 (tile_readback arg2 harg2 arg8.view x0 _ _ _ _ _ _ _) (readAt_whole arg3 harg3 x1 hz2 _)) (readAt_whole arg5 harg5 xs0 hz2 _)

/-- The rescaled sum plus this half's. -/
theorem secondSum (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1024 .f32) (harg7 : arg7.IsWhole) (arg8 : Memref sig .tc .vmem S2048x1024 .bf16) (harg8 : arg8.IsWhole) (hc0 : ¬cond0_0 i) (hc1 : cond0_1 i) (hc2 : cond0_2 i) (x0 : Vec F S1x2048x1024 .f32) (x1 : Vec F S64x1024 .bf16) (xs0 : Vec F S64x1 .f32) (xs1 : Vec F S64x1 .f32) (xs2 : Vec F S64x1024 .f32) :
    sout0_B_1 c i arg2 harg2 arg3 harg3 arg4 harg4 arg5 harg5 arg6 harg6 arg7 harg7 arg8 harg8 hc0 hc1 hc2 x0 x1 xs0 xs1 xs2 = k0_pay11 (tile x0) x1 xs0 xs1 := by
  unfold sout0_B_1
  rw [View.read_writes_eq_canon _ _ _ (scover0_B_1 c i arg2 harg2 arg3 harg3 arg4 harg4 arg5 harg5 arg6 harg6 arg7 harg7 arg8 harg8 hc0 hc1 hc2 x0 x1 xs0 xs1 xs2)]
  unfold kernelRun0_B
  dsimp only
  sl_unfold_words
  rw [View.canon_unit_zero hz2]
  exact congr (congr (congrArg₂ k0_pay11 (tile_readback arg2 harg2 arg8.view x0 _ _ _ _ _ _ _) (readAt_whole arg3 harg3 x1 hz2 _)) (readAt_whole arg5 harg5 xs0 hz2 _)) (readAt_whole arg6 harg6 xs1 hz2 _)

/-- The rescaled weighted rows plus this half's. -/
theorem secondAcc (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1024 .f32) (harg7 : arg7.IsWhole) (arg8 : Memref sig .tc .vmem S2048x1024 .bf16) (harg8 : arg8.IsWhole) (hc0 : ¬cond0_0 i) (hc1 : cond0_1 i) (hc2 : cond0_2 i) (x0 : Vec F S1x2048x1024 .f32) (x1 : Vec F S64x1024 .bf16) (xs0 : Vec F S64x1 .f32) (xs1 : Vec F S64x1 .f32) (xs2 : Vec F S64x1024 .f32) :
    sout0_B_2 c i arg2 harg2 arg3 harg3 arg4 harg4 arg5 harg5 arg6 harg6 arg7 harg7 arg8 harg8 hc0 hc1 hc2 x0 x1 xs0 xs1 xs2 = k0_pay12 (tile x0) x1 xs0 xs2 := by
  unfold sout0_B_2
  rw [View.read_writes_eq_canon _ _ _ (scover0_B_2 c i arg2 harg2 arg3 harg3 arg4 harg4 arg5 harg5 arg6 harg6 arg7 harg7 arg8 harg8 hc0 hc1 hc2 x0 x1 xs0 xs1 xs2)]
  unfold kernelRun0_B
  dsimp only
  sl_unfold_words
  rw [View.canon_unit_zero hz2]
  exact congr (congr (congrArg₂ k0_pay12 (tile_readback arg2 harg2 arg8.view x0 _ _ _ _ _ _ _) (readAt_whole arg3 harg3 x1 hz2 _)) (readAt_whole arg5 harg5 xs0 hz2 _)) (readAt_whole arg7 harg7 xs2 hz2 _)

/-- The output block: the weighted rows over the sums, both read back after their stores. -/
theorem secondOut (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1024 .f32) (harg7 : arg7.IsWhole) (arg8 : Memref sig .tc .vmem S2048x1024 .bf16) (harg8 : arg8.IsWhole) (hc0 : ¬cond0_0 i) (hc1 : cond0_1 i) (hc2 : cond0_2 i) (x0 : Vec F S1x2048x1024 .f32) (x1 : Vec F S64x1024 .bf16) (xs0 : Vec F S64x1 .f32) (xs1 : Vec F S64x1 .f32) (xs2 : Vec F S64x1024 .f32) :
    out0_B_2 c i arg2 harg2 arg3 harg3 arg4 harg4 arg5 harg5 arg6 harg6 arg7 harg7 arg8 harg8 hc0 hc1 hc2 x0 x1 xs0 xs1 xs2
      = k0_pay14 (k0_pay12 (tile x0) x1 xs0 xs2) (k0_pay11 (tile x0) x1 xs0 xs1) := by
  unfold out0_B_2
  rw [View.read_writes_eq_canon _ _ _ (cover0_B_2 c i arg2 harg2 arg3 harg3 arg4 harg4 arg5 harg5 arg6 harg6 arg7 harg7 arg8 harg8 hc0 hc1 hc2 x0 x1 xs0 xs1 xs2)]
  unfold kernelRun0_B
  dsimp only
  sl_unfold_words
  rw [View.canon_unit_zero hz3]
  refine congrArg₂ k0_pay14 ?_ ?_
  · refine (View.readCov_unit_zero (S := S64x1024) arg7.view hz2 _ _).trans ?_
    exact congr (congr (congrArg₂ k0_pay12 (tile_readback arg2 harg2 arg8.view x0 _ _ _ _ _ _ _) (readAt_whole arg3 harg3 x1 hz2 _)) (readAt_whole arg5 harg5 xs0 hz2 _)) (readAt_whole arg7 harg7 xs2 hz2 _)
  · refine (View.readCov_unit_zero (S := S64x1) arg6.view hz2 _ _).trans ?_
    exact congr (congr (congrArg₂ k0_pay11 (tile_readback arg2 harg2 arg8.view x0 _ _ _ _ _ _ _) (readAt_whole arg3 harg3 x1 hz2 _)) (readAt_whole arg5 harg5 xs0 hz2 _)) (readAt_whole arg6 harg6 xs1 hz2 _)

end Cert.KernelIdeal.Pieces

end
-- ==== Proof.PointValue.lean ====
/-
  One grid point's arithmetic, entry by entry, on the extended reals.

  T is the tile of 2048 hidden rows a point works on and q the 64 query rows.  Entry (c, r) of the score block is
  the sum over k of q (c, k) * T (r, k); a row's maximum is the fold of max from minus infinity over the 2048
  scores of the row; the exponentials are exp (score - maximum); their row sums and their products with the tile
  are plain sums over the 2048 rows.  The second half's update multiplies what the first half left by
  exp (old maximum - new maximum) and adds its own sums; the output entry is the quotient of the two.
-/
import proofs.«413821_j2937757630770_3_alg».proof.Proof.Spec
import proofs.«413821_j2937757630770_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.PointValue

open Cert.KernelIdeal Cert.KernelIdeal.Gen Cert.AttnPool

/-! ## The layout steps -/

/-- A vector of 64 entries seen as a column reads its entry c at (c, 0). -/
theorem col_apply {α : Type} (v : S64.Idx → α) (h : S64.ShapeCasts S64x1) (c : Fin 64) :
    shapeCast S64x1 v h (ix2 c (0 : Fin 1)) = v (ix1 c) :=
  shapeCast_apply v h _ _ (by
    rw [Shape.rowMajor_val_one, Shape.rowMajor_val_two]
    show c.val = c.val * 1 + 0
    omega)

/-- A column broadcast along a row of n entries reads the column's entry of the same row. -/
theorem bcast_apply {α : Type} (n : Nat) (v : S64x1.Idx → α) (h : S64x1.Broadcasts ⟨2, ![64, n]⟩) (c : Fin 64) (j : Fin n) :
    broadcastTo ⟨2, ![64, n]⟩ v h (ix2 c j) = v (ix2 c (0 : Fin 1)) :=
  broadcastTo_apply v h (ix2 c j) (ix2 c (0 : Fin 1)) (fun ax => by
    match ax with
    | ⟨0, _⟩ => show c.val = if (64 : Nat) = 1 then 0 else c.val; rw [if_neg (by decide)]
    | ⟨1, _⟩ => show 0 = if (1 : Nat) = 1 then 0 else j.val; rw [if_pos rfl])

/-! ## The two contractions -/

theorem lhs1_0 (i : S64x2048.Idx) (p : dot_S64x1024_S2048x1024_S64x2048_1_1_0_0_n_n.contr.Idx) : (dot_S64x1024_S2048x1024_S64x2048_1_1_0_0_n_n.lhsIdx i p 0).val = (i 0).val := by
  unfold DotDims.lhsIdx
  rw [dif_neg (show ¬(0 : Fin S64x1024.rank) ∈ dot_S64x1024_S2048x1024_S64x2048_1_1_0_0_n_n.lhsBatch by decide), dif_pos (show (0 : Fin S64x1024.rank) ∈ dot_S64x1024_S2048x1024_S64x2048_1_1_0_0_n_n.lhsNonContracting by decide)]
  rfl
theorem lhs1_1 (i : S64x2048.Idx) (p : dot_S64x1024_S2048x1024_S64x2048_1_1_0_0_n_n.contr.Idx) : (dot_S64x1024_S2048x1024_S64x2048_1_1_0_0_n_n.lhsIdx i p 1).val = (p ⟨0, by decide⟩).val :=
  dot_S64x1024_S2048x1024_S64x2048_1_1_0_0_n_n.lhsIdx_val_of_single rfl i p
theorem rhs1_0 (i : S64x2048.Idx) (p : dot_S64x1024_S2048x1024_S64x2048_1_1_0_0_n_n.contr.Idx) : (dot_S64x1024_S2048x1024_S64x2048_1_1_0_0_n_n.rhsIdx i p 0).val = (i 1).val := by
  unfold DotDims.rhsIdx
  rw [dif_neg (show ¬(0 : Fin S2048x1024.rank) ∈ dot_S64x1024_S2048x1024_S64x2048_1_1_0_0_n_n.rhsBatch by decide), dif_pos (show (0 : Fin S2048x1024.rank) ∈ dot_S64x1024_S2048x1024_S64x2048_1_1_0_0_n_n.rhsNonContracting by decide)]
  rfl
theorem rhs1_1 (i : S64x2048.Idx) (p : dot_S64x1024_S2048x1024_S64x2048_1_1_0_0_n_n.contr.Idx) : (dot_S64x1024_S2048x1024_S64x2048_1_1_0_0_n_n.rhsIdx i p 1).val = (p ⟨0, by decide⟩).val :=
  dot_S64x1024_S2048x1024_S64x2048_1_1_0_0_n_n.rhsIdx_val_of_single rfl i p

/-- The score of query row c against tile row r. -/
theorem scores_apply (T : Vec Ideal S2048x1024 .bf16) (q : Vec Ideal S64x1024 .bf16) (c : Fin 64) (r : Fin 2048) :
    k0_pay2 (F := Ideal) T q (ix2 c r) = ∑ k : Fin 1024, q (ix2 c k) * T (ix2 r k) := by
  unfold k0_pay2
  simp only [matmul]
  rw [shapeCast_self, Ideal.matmul_constant_zero_apply, ← Equiv.sum_comp (contrEquiv1 dot_S64x1024_S2048x1024_S64x2048_1_1_0_0_n_n 1024 rfl rfl).symm]
  refine Finset.sum_congr rfl fun k _ => ?_
  have hk := contrEquiv1_symm_val dot_S64x1024_S2048x1024_S64x2048_1_1_0_0_n_n 1024 rfl rfl k
  have el : dot_S64x1024_S2048x1024_S64x2048_1_1_0_0_n_n.lhsIdx (ix2 c r) ((contrEquiv1 dot_S64x1024_S2048x1024_S64x2048_1_1_0_0_n_n 1024 rfl rfl).symm k) = ix2 c k := funext fun a => Fin.ext (by
    match a with
    | ⟨0, _⟩ => exact lhs1_0 _ _
    | ⟨1, _⟩ => exact (lhs1_1 _ _).trans hk)
  have er : dot_S64x1024_S2048x1024_S64x2048_1_1_0_0_n_n.rhsIdx (ix2 c r) ((contrEquiv1 dot_S64x1024_S2048x1024_S64x2048_1_1_0_0_n_n 1024 rfl rfl).symm k) = ix2 r k := funext fun a => Fin.ext (by
    match a with
    | ⟨0, _⟩ => exact rhs1_0 _ _
    | ⟨1, _⟩ => exact (rhs1_1 _ _).trans hk)
  rw [el, er]

theorem lhs2_0 (i : S64x1024.Idx) (p : dot_S64x2048_S2048x1024_S64x1024_1_0_0_1_n_n.contr.Idx) : (dot_S64x2048_S2048x1024_S64x1024_1_0_0_1_n_n.lhsIdx i p 0).val = (i 0).val := by
  unfold DotDims.lhsIdx
  rw [dif_neg (show ¬(0 : Fin S64x2048.rank) ∈ dot_S64x2048_S2048x1024_S64x1024_1_0_0_1_n_n.lhsBatch by decide), dif_pos (show (0 : Fin S64x2048.rank) ∈ dot_S64x2048_S2048x1024_S64x1024_1_0_0_1_n_n.lhsNonContracting by decide)]
  rfl
theorem lhs2_1 (i : S64x1024.Idx) (p : dot_S64x2048_S2048x1024_S64x1024_1_0_0_1_n_n.contr.Idx) : (dot_S64x2048_S2048x1024_S64x1024_1_0_0_1_n_n.lhsIdx i p 1).val = (p ⟨0, by decide⟩).val :=
  dot_S64x2048_S2048x1024_S64x1024_1_0_0_1_n_n.lhsIdx_val_of_single rfl i p
theorem rhs2_0 (i : S64x1024.Idx) (p : dot_S64x2048_S2048x1024_S64x1024_1_0_0_1_n_n.contr.Idx) : (dot_S64x2048_S2048x1024_S64x1024_1_0_0_1_n_n.rhsIdx i p 0).val = (p ⟨0, by decide⟩).val :=
  dot_S64x2048_S2048x1024_S64x1024_1_0_0_1_n_n.rhsIdx_val_of_single rfl i p
theorem rhs2_1 (i : S64x1024.Idx) (p : dot_S64x2048_S2048x1024_S64x1024_1_0_0_1_n_n.contr.Idx) : (dot_S64x2048_S2048x1024_S64x1024_1_0_0_1_n_n.rhsIdx i p 1).val = (i 1).val := by
  unfold DotDims.rhsIdx
  rw [dif_neg (show ¬(1 : Fin S2048x1024.rank) ∈ dot_S64x2048_S2048x1024_S64x1024_1_0_0_1_n_n.rhsBatch by decide), dif_pos (show (1 : Fin S2048x1024.rank) ∈ dot_S64x2048_S2048x1024_S64x1024_1_0_0_1_n_n.rhsNonContracting by decide)]
  rfl

/-- A block of 64 x 2048 weights against the tile, into the zero array: entry (c, h) is the sum over the 2048 rows. -/
theorem weighted_apply (W : FVec Ideal S64x2048 .bf16) (T : FVec Ideal S2048x1024 .bf16) (c : Fin 64) (h : Fin 1024) :
    matmul dot_S64x2048_S2048x1024_S64x1024_1_0_0_1_n_n none W T (constant S64x1024 .f32 0x00000000#32) (ix2 c h) = ∑ r : Fin 2048, W (ix2 c r) * T (ix2 r h) := by
  simp only [matmul]
  rw [Ideal.matmul_constant_zero_apply, ← Equiv.sum_comp (contrEquiv1 dot_S64x2048_S2048x1024_S64x1024_1_0_0_1_n_n 2048 rfl rfl).symm]
  refine Finset.sum_congr rfl fun k _ => ?_
  have hk := contrEquiv1_symm_val dot_S64x2048_S2048x1024_S64x1024_1_0_0_1_n_n 2048 rfl rfl k
  have el : dot_S64x2048_S2048x1024_S64x1024_1_0_0_1_n_n.lhsIdx (ix2 c h) ((contrEquiv1 dot_S64x2048_S2048x1024_S64x1024_1_0_0_1_n_n 2048 rfl rfl).symm k) = ix2 c k := funext fun a => Fin.ext (by
    match a with
    | ⟨0, _⟩ => exact lhs2_0 _ _
    | ⟨1, _⟩ => exact (lhs2_1 _ _).trans hk)
  have er : dot_S64x2048_S2048x1024_S64x1024_1_0_0_1_n_n.rhsIdx (ix2 c h) ((contrEquiv1 dot_S64x2048_S2048x1024_S64x1024_1_0_0_1_n_n 2048 rfl rfl).symm k) = ix2 k h := funext fun a => Fin.ext (by
    match a with
    | ⟨0, _⟩ => exact (rhs2_0 _ _).trans hk
    | ⟨1, _⟩ => exact rhs2_1 _ _)
  rw [el, er]

/-! ## The reductions along a row -/

theorem red : S64x2048.Reduces [1] S64 := by decide

/-- A row's maximum from minus infinity. -/
theorem rowmax_apply (X : FVec Ideal S64x2048 .f32) (hφ) (hacc) (c : Fin 64) :
    multiReduction .maximumf [1] S64 X 0xFF800000#32 reduces_S64x2048_S64 hφ hacc (ix1 c)
      = Finset.univ.fold max ⊥ (fun r : Fin 2048 => X (ix2 c r)) := by
  rw [Ideal.multiReduction_maximumf_single]
  show (Finset.univ : Finset (Fin 2048)).fold max (Ideal.ofBits .f32 0xFF800000#32) _ = _
  rw [ofBits_neg_inf]
  refine congrArg (fun f => Finset.fold max (⊥ : EReal) f (Finset.univ : Finset (Fin 2048))) (funext fun r => ?_)
  exact congrArg X (funext fun a => Fin.ext (by match a with | ⟨0, _⟩ => rfl | ⟨1, _⟩ => rfl))

/-- A row's sum. -/
theorem rowsum_apply (X : FVec Ideal S64x2048 .f32) (hφ) (hacc) (c : Fin 64) :
    multiReduction .add [1] S64 X 0x00000000#32 reduces_S64x2048_S64 hφ hacc (ix1 c)
      = ∑ r : Fin 2048, X (ix2 c r) := by
  rw [Ideal.multiReduction_add_single]
  show ∑ r : Fin 2048, _ = _
  refine Finset.sum_congr rfl fun r _ => ?_
  exact congrArg X (funext fun a => Fin.ext (by match a with | ⟨0, _⟩ => rfl | ⟨1, _⟩ => rfl))

/-! ## The payloads, entry by entry -/

variable (T : Vec Ideal S2048x1024 .bf16) (q : Vec Ideal S64x1024 .bf16)

/-- The row maxima, as a column. -/
theorem max_apply (c : Fin 64) :
    k0_pay3 (F := Ideal) T q (ix2 c (0 : Fin 1)) = Finset.univ.fold max ⊥ (fun r : Fin 2048 => k0_pay2 (F := Ideal) T q (ix2 c r)) := by
  unfold k0_pay3
  exact (col_apply _ _ c).trans (rowmax_apply _ _ _ c)

theorem stored_max_eq : k0_pay4 (F := Ideal) T q = k0_pay3 (F := Ideal) T q := by
  unfold k0_pay4
  rw [shapeCast_self]

/-- The exponentials of the first half. -/
theorem exp_apply (c : Fin 64) (r : Fin 2048) :
    k0_pay5 (F := Ideal) T q (ix2 c r)
      = Ideal.exp (k0_pay2 (F := Ideal) T q (ix2 c r) - k0_pay3 (F := Ideal) T q (ix2 c (0 : Fin 1))) := by
  unfold k0_pay5
  show Ideal.exp (k0_pay2 (F := Ideal) T q (ix2 c r) - broadcastTo S64x2048 (k0_pay3 (F := Ideal) T q) _ (ix2 c r)) = _
  rw [bcast_apply 2048]

/-- Their row sums. -/
theorem sum_apply (c : Fin 64) :
    k0_pay6 (F := Ideal) T q (ix2 c (0 : Fin 1)) = ∑ r : Fin 2048, k0_pay5 (F := Ideal) T q (ix2 c r) := by
  unfold k0_pay6
  refine (congrFun (shapeCast_self _ _) _).trans ?_
  exact (col_apply _ _ c).trans (rowsum_apply _ _ _ c)

/-- Their products with the tile. -/
theorem acc_apply (c : Fin 64) (h : Fin 1024) :
    k0_pay7 (F := Ideal) T q (ix2 c h) = ∑ r : Fin 2048, k0_pay5 (F := Ideal) T q (ix2 c r) * T (ix2 r h) := by
  unfold k0_pay7
  rw [shapeCast_self]
  exact weighted_apply _ T c h

variable (m : Vec Ideal S64x1 .f32)

theorem newmax_apply (c : Fin 64) :
    k0_pay8 (F := Ideal) T q m (ix2 c (0 : Fin 1)) = max (m (ix2 c (0 : Fin 1))) (k0_pay3 (F := Ideal) T q (ix2 c (0 : Fin 1))) := rfl

theorem scale_apply (c : Fin 64) :
    k0_pay9 (F := Ideal) T q m (ix2 c (0 : Fin 1))
      = Ideal.exp (m (ix2 c (0 : Fin 1)) - k0_pay8 (F := Ideal) T q m (ix2 c (0 : Fin 1))) := rfl

/-- The exponentials of the second half, against the new maxima. -/
theorem exp2_apply (c : Fin 64) (r : Fin 2048) :
    k0_pay10 (F := Ideal) T q m (ix2 c r)
      = Ideal.exp (k0_pay2 (F := Ideal) T q (ix2 c r) - k0_pay8 (F := Ideal) T q m (ix2 c (0 : Fin 1))) := by
  unfold k0_pay10
  show Ideal.exp (k0_pay2 (F := Ideal) T q (ix2 c r) - broadcastTo S64x2048 (k0_pay8 (F := Ideal) T q m) _ (ix2 c r)) = _
  rw [bcast_apply 2048]

/-- The updated sums. -/
theorem sum2_apply (l : Vec Ideal S64x1 .f32) (c : Fin 64) :
    k0_pay11 (F := Ideal) T q m l (ix2 c (0 : Fin 1))
      = k0_pay9 (F := Ideal) T q m (ix2 c (0 : Fin 1)) * l (ix2 c (0 : Fin 1)) + ∑ r : Fin 2048, k0_pay10 (F := Ideal) T q m (ix2 c r) := by
  unfold k0_pay11
  refine (congrFun (shapeCast_self _ _) _).trans ?_
  exact congrArg (k0_pay9 (F := Ideal) T q m (ix2 c (0 : Fin 1)) * l (ix2 c (0 : Fin 1)) + ·)
    ((col_apply _ _ c).trans (rowsum_apply _ _ _ c))

/-- The updated weighted rows. -/
theorem acc2_apply (acc : Vec Ideal S64x1024 .f32) (c : Fin 64) (h : Fin 1024) :
    k0_pay12 (F := Ideal) T q m acc (ix2 c h)
      = k0_pay9 (F := Ideal) T q m (ix2 c (0 : Fin 1)) * acc (ix2 c h) + ∑ r : Fin 2048, k0_pay10 (F := Ideal) T q m (ix2 c r) * T (ix2 r h) := by
  unfold k0_pay12
  rw [shapeCast_self]
  show broadcastTo S64x1024 (k0_pay9 (F := Ideal) T q m) _ (ix2 c h) * acc (ix2 c h) + matmul dot_S64x2048_S2048x1024_S64x1024_1_0_0_1_n_n none _ T _ (ix2 c h) = _
  rw [bcast_apply 1024, weighted_apply]
  rfl

/-- The output entry: the weighted row over the sum. -/
theorem out_apply (acc : Vec Ideal S64x1024 .f32) (l : Vec Ideal S64x1 .f32) (c : Fin 64) (h : Fin 1024) :
    k0_pay14 (F := Ideal) acc l (ix3 (0 : Fin 1) c h) = Ideal.div (acc (ix2 c h)) (l (ix2 c (0 : Fin 1))) := by
  unfold k0_pay14
  rw [shapeCast_ab_1ab_apply]
  show Ideal.div (acc (ix2 c h)) (broadcastTo S64x1024 l _ (ix2 c h)) = _
  rw [bcast_apply 1024]

/-! ## The two halves together -/

/-- What the second half of a batch writes to the output block, from the first half's tile TA and query block qA, and its own TB and qB: the quotient of the updated weighted rows by the updated sums, both updated from what the first
    half stored. -/
def pointOut {F : FTy → Type} [FloatOps F] (TA : Vec F S2048x1024 .bf16) (qA : Vec F S64x1024 .bf16)
    (TB : Vec F S2048x1024 .bf16) (qB : Vec F S64x1024 .bf16) : FVec F S1x64x1024 .f32 :=
  k0_pay14 (k0_pay12 TB qB (k0_pay4 TA qA) (k0_pay7 TA qA)) (k0_pay11 TB qB (k0_pay4 TA qA) (k0_pay6 TA qA))

/-- Entry (0, c, h) of it is the two-halves form of the pooled entry, the halves' scores and values read off the
    two tiles. -/
theorem pointOut_apply (TA TB : Vec Ideal S2048x1024 .bf16) (c : Fin 64) (h : Fin 1024) :
    pointOut (F := Ideal) TA q TB q (ix3 (0 : Fin 1) c h)
      = halvesOut (fun r => ∑ k : Fin 1024, q (ix2 c k) * TA (ix2 r k)) (fun r => ∑ k : Fin 1024, q (ix2 c k) * TB (ix2 r k))
          (fun r => TA (ix2 r h)) (fun r => TB (ix2 r h)) := by
  unfold pointOut halvesOut
  rw [out_apply, acc2_apply, sum2_apply, scale_apply, newmax_apply, stored_max_eq, max_apply, max_apply, acc_apply, sum_apply]
  simp only [exp2_apply, exp_apply, newmax_apply, stored_max_eq, max_apply, scores_apply]

end Cert.KernelIdeal.PointValue

end
-- ==== Proof.KerArray.lean ====
/-
  The output block of every batch, from the two halves of the batch's hidden rows.

  The grid runs over (batch, half): point 2b is the first half of batch b and point 2b + 1 its second half.  After a
  first-half point the three carried buffers hold that half's row maxima, row sums and weighted rows; the second-half
  point updates them and leaves in the output's buffer the quotient formed from both halves' tiles.
-/
import proofs.«413821_j2937757630770_3_alg».proof.Proof.Pieces
import proofs.«413821_j2937757630770_3_alg».proof.Proof.PointValue

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Points

open Cert.KernelIdeal Cert.KernelIdeal.Gen Cert.KernelIdeal.Pieces Cert.KernelIdeal.PointValue

variable {F : FTy → Type} [FloatOps F]
variable (m : (ℓ : Loc nD τ sig) → Buf (Elt F) ℓ)

/-- The block of hidden rows and the block of queries a point is handed. -/
abbrev hblk (c : Dev nD) (t : Fin cfg0.N) : Vec F S1x2048x1024 .f32 := iblk m c 0 t
abbrev qblk (c : Dev nD) (t : Fin cfg0.N) : Vec F S64x1024 .bf16 := iblk m c 1 t

/-- The point before a point that is not the first. -/
def before (t : Fin cfg0.N) : Fin cfg0.N := ⟨t.val - 1, Nat.lt_of_le_of_lt (Nat.sub_le _ _) t.isLt⟩

/-- After a first-half point the carried buffers hold its maxima, sums and weighted rows. -/
theorem firstState (c : Dev nD) (t : Fin cfg0.N) (h0 : t.val % 2 = 0) :
    (outsAt0 m c t.val t.isLt).2.1 = k0_pay4 (tile (hblk m c t)) (qblk m c t)
    ∧ (outsAt0 m c t.val t.isLt).2.2.1 = k0_pay6 (tile (hblk m c t)) (qblk m c t)
    ∧ (outsAt0 m c t.val t.isLt).2.2.2 = k0_pay7 (tile (hblk m c t)) (qblk m c t) := by
  have h1 : ¬t.val % 2 = 1 := by omega
  rw [outsAt0_A m c t h0 h1 h1]
  dsimp only
  exact ⟨firstMax c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h1 ((hcond0_2 t).mp h)) (hblk m c t) (qblk m c t),
    firstSum c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h1 ((hcond0_2 t).mp h)) (hblk m c t) (qblk m c t),
    firstAcc c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h1 ((hcond0_2 t).mp h)) (hblk m c t) (qblk m c t)⟩

/-- After a second-half point the output's buffer holds the quotient formed from both halves. -/
theorem secondBlock (c : Dev nD) (t : Fin cfg0.N) (h1 : t.val % 2 = 1) :
    (outsAt0 m c t.val t.isLt).1
      = pointOut (tile (hblk m c (before t))) (qblk m c (before t)) (tile (hblk m c t)) (qblk m c t) := by
  have h0 : ¬t.val % 2 = 0 := by omega
  have hb : (before t).val % 2 = 0 := by show (t.val - 1) % 2 = 0; omega
  obtain ⟨e0, e1, e2⟩ := firstState m c (before t) hb
  rw [outsAt0_B m c t h0 h1 h1]
  dsimp only
  refine (secondOut c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h1) (hblk m c t) (qblk m c t)
    (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2).trans ?_
  unfold pointOut
  rw [← e0, ← e1, ← e2]
  rfl

/-! ## The blocks, read off the arrays -/

section AtIdeal

variable (mi : (ℓ : Loc nD τ sig) → Buf (Elt Ideal) ℓ)

/-- The hidden states and the queries as launched. -/
abbrev Harr (c : Dev nD) : S16x4096x1024.Idx → EReal := mi ((c : Thread nD τ).loc main_arg0)
abbrev Qarr (c : Dev nD) : S64x1024.Idx → EReal := mi ((c : Thread nD τ).loc main_arg1)

/-- Point t's hidden block is batch t / 2, half t % 2; the query block never moves; the output block is batch t / 2. -/
theorem hidx : ∀ t : Fin cfg0.N, win0_0.index t (0 : Fin 3) = t.val / 2 ∧ win0_0.index t (1 : Fin 3) = t.val % 2 ∧ win0_0.index t (2 : Fin 3) = 0 :=
  (by decide +kernel : ∀ t : Fin grid0.N, win0_0.index t (0 : Fin 3) = t.val / 2 ∧ win0_0.index t (1 : Fin 3) = t.val % 2 ∧ win0_0.index t (2 : Fin 3) = 0)
theorem qidx : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem oidx : ∀ t : Fin cfg0.N, win0_2.index t (0 : Fin 3) = t.val / 2 ∧ win0_2.index t (1 : Fin 3) = 0 ∧ win0_2.index t (2 : Fin 3) = 0 :=
  (by decide +kernel : ∀ t : Fin grid0.N, win0_2.index t (0 : Fin 3) = t.val / 2 ∧ win0_2.index t (1 : Fin 3) = 0 ∧ win0_2.index t (2 : Fin 3) = 0)

/-- Row r, feature k of the tile of point t is the hidden state of batch t / 2 at position (t % 2) * 2048 + r. -/
theorem tile_apply (c : Dev nD) (t : Fin cfg0.N) (b : Fin 16) (s : Fin 4096) (r : Fin 2048) (k : Fin 1024)
    (hb : b.val = t.val / 2) (hs : s.val = t.val % 2 * 2048 + r.val) :
    tile (hblk mi c t) (ix2 r k) = Harr mi c (ix3 b s k) := by
  show shapeCast S2048x1024 (hblk mi c t) _ (ix2 r k) = _
  rw [shapeCast_1ab_ab_apply]
  unfold hblk iblk
  rw [View.read_apply]
  show V mi c main_arg0 _ = mi ((c : Thread nD τ).loc main_arg0) _
  rw [V_main_arg0]
  congr 1
  funext a
  apply Fin.ext
  obtain ⟨i0, i1, i2⟩ := hidx t
  match a with
  | ⟨0, _⟩ => show win0_0.index t 0 * 1 + 1 * 0 = b.val; rw [i0, hb]; omega
  | ⟨1, _⟩ => show win0_0.index t 1 * 2048 + 1 * r.val = s.val; rw [i1, hs]; omega
  | ⟨2, _⟩ => show win0_0.index t 2 * 1024 + 1 * k.val = k.val; rw [i2]; omega

/-- The query block of every point is the queries, changed of format. -/
theorem qblk_apply (c : Dev nD) (t : Fin cfg0.N) (cc : Fin 64) (k : Fin 1024) :
    qblk mi c t (ix2 cc k) = Qarr mi c (ix2 cc k) := by
  have e : (V mi c main_v0 : S64x1024.Idx → EReal) = (truncf (F := Ideal) .bf16 (Qarr mi c) bitsLt_bf16_f32 : FVec Ideal S64x1024 .bf16) := by
    show StableHlo.after hostOps0 (fun b => mi (c, b)) (Proc.devRef .tc main_v0) = _
    after_results
  unfold qblk iblk
  rw [View.read_apply]
  show V mi c main_v0 _ = mi ((c : Thread nD τ).loc main_arg1) _
  rw [e]
  show mi ((c : Thread nD τ).loc main_arg1) _ = mi ((c : Thread nD τ).loc main_arg1) _
  congr 1
  funext a
  apply Fin.ext
  obtain ⟨i0, i1⟩ := qidx t
  match a with
  | ⟨0, _⟩ => show win0_1.index t 0 * 64 + 1 * cc.val = cc.val; rw [i0]; omega
  | ⟨1, _⟩ => show win0_1.index t 1 * 1024 + 1 * k.val = k.val; rw [i1]; omega

/-- The query block is the same at every point. -/
theorem qblk_eq (c : Dev nD) (t t' : Fin cfg0.N) : qblk mi c t = qblk mi c t' := by
  funext j
  rw [eq_ix2 j]
  exact (qblk_apply mi c t _ _).trans (qblk_apply mi c t' _ _).symm

/-- Entry (0, cc, hh) of what a second-half point leaves in the output's buffer: the pooled entry of its batch,
    in the two-halves form. -/
theorem secondBlock_apply (c : Dev nD) (t : Fin cfg0.N) (h1 : t.val % 2 = 1) (b : Fin 16) (hb : b.val = t.val / 2)
    (cc : Fin 64) (hh : Fin 1024) :
    (outsAt0 mi c t.val t.isLt).1 (ix3 (0 : Fin 1) cc hh)
      = Cert.AttnPool.kerOut (Cert.AttnPool.cur3 (Harr mi c)) (Cert.AttnPool.cur2 (Qarr mi c)) b cc hh := by
  have hbv : (before t).val = t.val - 1 := rfl
  rw [secondBlock mi c t h1, qblk_eq mi c (before t) t, pointOut_apply]
  unfold Cert.AttnPool.kerOut Cert.AttnPool.score Cert.AttnPool.cur3 Cert.AttnPool.cur2
  have eA : ∀ (r : Fin 2048) (k : Fin 1024), tile (hblk mi c (before t)) (ix2 r k) = Harr mi c (ix3 b (Cert.AttnPool.lo r) k) :=
    fun r k => tile_apply mi c (before t) b (Cert.AttnPool.lo r) r k (by rw [hbv, hb]; omega) (by rw [hbv]; show r.val = _; omega)
  have eB : ∀ (r : Fin 2048) (k : Fin 1024), tile (hblk mi c t) (ix2 r k) = Harr mi c (ix3 b (Cert.AttnPool.hi r) k) :=
    fun r k => tile_apply mi c t b (Cert.AttnPool.hi r) r k hb (by show 2048 + r.val = _; omega)
  simp only [eA, eB, qblk_apply]

/-! ## The output array -/

/-- The [16, 64, 1024] array of pooled entries. -/
def outArr (c : Dev nD) : S16x64x1024.Idx → EReal := fun j =>
  Cert.AttnPool.kerOut (Cert.AttnPool.cur3 (Harr mi c)) (Cert.AttnPool.cur2 (Qarr mi c))
    ⟨(j 0).val, (j 0).isLt⟩ ⟨(j 1).val, (j 1).isLt⟩ ⟨(j 2).val, (j 2).isLt⟩

/-- The same at any index of the block. -/
theorem secondBlock_at (c : Dev nD) (t : Fin cfg0.N) (h1 : t.val % 2 = 1) (b : Fin 16) (hb : b.val = t.val / 2)
    (y : S1x64x1024.Idx) :
    (outsAt0 mi c t.val t.isLt).1 y
      = Cert.AttnPool.kerOut (Cert.AttnPool.cur3 (Harr mi c)) (Cert.AttnPool.cur2 (Qarr mi c)) b
          ⟨(y 1).val, (y 1).isLt⟩ ⟨(y 2).val, (y 2).isLt⟩ := by
  have ey : y = ix3 (0 : Fin 1) (⟨(y 1).val, (y 1).isLt⟩ : Fin 64) (⟨(y 2).val, (y 2).isLt⟩ : Fin 1024) := by
    funext a
    match a with
    | ⟨0, _⟩ => exact Fin.ext (by have h : (y 0).val < 1 := (y 0).isLt; show (y 0).val = 0; omega)
    | ⟨1, _⟩ => rfl
    | ⟨2, _⟩ => rfl
  exact (congrArg (outsAt0 mi c t.val t.isLt).1 ey).trans (secondBlock_apply mi c t h1 b hb _ _)

/-- What a second-half point writes back is its batch's block of that array. -/
theorem flushed_eq (c : Dev nD) (t : Fin cfg0.N) (hf : (cfg0.win 2).flush t = true) :
    (dats mi 0 c).flushed 2 t = ((cfg0.win 2).blk t).view.read (Elt Ideal) (outArr mi c) := by
  have h1 : t.val % 2 = 1 := (flush0_2 t).mp hf
  have hN : t.val < 32 := lt_of_lt_of_eq t.isLt (show cfg0.N = 32 from N_0)
  show (cfg0.win 2).cut (grid0.coords t) ((dats mi 0 c).after 2 t) = _
  rw [after0_2]
  funext y
  show (outsAt0 mi c t.val t.isLt).1 y = outArr mi c (((cfg0.win 2).blk t).view.emb y)
  rw [secondBlock_at mi c t h1 ⟨t.val / 2, by omega⟩ rfl y]
  unfold outArr
  obtain ⟨o0, o1, o2⟩ := oidx t
  have hy0 : (y 0).val < 1 := (y 0).isLt
  have e0 : ((((cfg0.win 2).blk t).view.emb y) 0).val = t.val / 2 := by
    show win0_2.index t (0 : Fin 3) * 1 + 1 * (y 0).val = _; rw [o0]; omega
  have e1 : ((((cfg0.win 2).blk t).view.emb y) 1).val = (y 1).val := by
    show win0_2.index t (1 : Fin 3) * 64 + 1 * (y 1).val = _; rw [o1]; omega
  have e2 : ((((cfg0.win 2).blk t).view.emb y) 2).val = (y 2).val := by
    show win0_2.index t (2 : Fin 3) * 1024 + 1 * (y 2).val = _; rw [o2]; omega
  exact congr (congr (congrArg (Cert.AttnPool.kerOut _ _) (Fin.ext e0.symm)) (Fin.ext e1.symm)) (Fin.ext e2.symm)

/-- An index of the output array is in point t's block when each coordinate is in the block's range. -/
theorem mem_blk (t : Fin cfg0.N) (i : S16x64x1024.Idx) :
    i ∈ ((cfg0.win 2).blk t).view.set ↔ ∀ a : Fin 3, win0_2.index t a * S1x64x1024.size a ≤ (i a).val
      ∧ (i a).val < win0_2.index t a * S1x64x1024.size a + S1x64x1024.size a := by
  show i ∈ ((View.whole main_v1).slice (win0_2.rect t)).set ↔ _
  rw [View.set_slice_whole, Rect.mem_set_unit]
  exact Iff.rfl

/-- Every index of the output array is in the block of its batch's second-half point. -/
theorem cover (i : S16x64x1024.Idx) :
    ∃ t : Fin cfg0.N, (cfg0.win 2).flush t = true ∧ i ∈ ((cfg0.win 2).blk t).view.set := by
  have hi0 : (i 0).val < 16 := (i 0).isLt
  have hi1 : (i 1).val < 64 := (i 1).isLt
  have hi2 : (i 2).val < 1024 := (i 2).isLt
  have hN : cfg0.N = 32 := N_0
  have ht : 2 * (i 0).val + 1 < cfg0.N := by rw [hN]; omega
  refine ⟨⟨2 * (i 0).val + 1, ht⟩, (flush0_2 _).mpr (by show (2 * (i 0).val + 1) % 2 = 1; omega), ?_⟩
  rw [mem_blk]
  obtain ⟨o0, o1, o2⟩ := oidx ⟨2 * (i 0).val + 1, ht⟩
  have o0' : win0_2.index ⟨2 * (i 0).val + 1, ht⟩ (0 : Fin 3) = (i 0).val := by rw [o0]; show (2 * (i 0).val + 1) / 2 = _; omega
  intro a
  match a with
  | ⟨0, _⟩ => show win0_2.index ⟨2 * (i 0).val + 1, ht⟩ (0 : Fin 3) * 1 ≤ (i 0).val ∧ (i 0).val < win0_2.index ⟨2 * (i 0).val + 1, ht⟩ (0 : Fin 3) * 1 + 1; rw [o0']; omega
  | ⟨1, _⟩ => show win0_2.index ⟨2 * (i 0).val + 1, ht⟩ (1 : Fin 3) * 64 ≤ (i 1).val ∧ (i 1).val < win0_2.index ⟨2 * (i 0).val + 1, ht⟩ (1 : Fin 3) * 64 + 64; rw [o1]; omega
  | ⟨2, _⟩ => show win0_2.index ⟨2 * (i 0).val + 1, ht⟩ (2 : Fin 3) * 1024 ≤ (i 2).val ∧ (i 2).val < win0_2.index ⟨2 * (i 0).val + 1, ht⟩ (2 : Fin 3) * 1024 + 1024; rw [o2]; omega

/-- So the output array ends holding the pooled entries. -/
theorem final (c : Dev nD) : (dats mi 0 c).arrAt 2 cfg0.N = outArr mi c :=
  (dats mi 0 c).arrAt_eq_of_cover 2 (outArr mi c) (flushed_eq mi c) (cover)

/-! ## The flattening after the region, and the run -/

/-- The result: the output array flattened to [16, 64 * 1024]. -/
theorem tail_eq (c : Dev nD) :
    Pipeline.afterTail₀ cfgs (dats mi) 0 (V0 mi) [hostOps1] c main_v2
      = shapeCast S16x65536 (outArr mi c) shapeCasts_S16x64x1024_S16x65536 := by
  unfold Pipeline.afterTail₀
  show StableHlo.after hostOps1 _ (Proc.devRef .tc main_v2) = _
  after_results
  funext i
  show shapeCast S16x65536 (Pipeline.withArrays spec0 c (V0 mi c) (fun w => (dats mi 0 c).arrAt w cfg0.N)
    (Proc.devRef .tc main_v1)) shapeCasts_S16x64x1024_S16x65536 i = _
  have e : Pipeline.withArrays spec0 c (V0 mi c) (fun w => (dats mi 0 c).arrAt w cfg0.N) (Proc.devRef .tc main_v1)
      = outArr mi c := (Pipeline.withArrays_arr spec0 launch0.win.arr_inj c _ _ 2).trans (final mi c)
  rw [e]

/-- Entry i of the flattened result is the pooled entry of i's batch, query row and feature. -/
theorem result_apply (c : Dev nD) (i : S16x65536.Idx) :
    shapeCast S16x65536 (outArr mi c) shapeCasts_S16x64x1024_S16x65536 i
      = Cert.AttnPool.kerOut (Cert.AttnPool.cur3 (Harr mi c)) (Cert.AttnPool.cur2 (Qarr mi c))
          (Cert.AttnPool.bOf i) (Cert.AttnPool.cOf i) (Cert.AttnPool.hOf i) := by
  have hi0 : (i 0).val < 16 := (i 0).isLt
  have hi1 : (i 1).val < 65536 := (i 1).isLt
  rw [shapeCast_apply (outArr mi c) shapeCasts_S16x64x1024_S16x65536 i
    (ix3 (Cert.AttnPool.bOf i) (Cert.AttnPool.cOf i) (Cert.AttnPool.hOf i)) (by
      rw [Shape.rowMajor_val_three, Shape.rowMajor_val_two]
      show ((i 0).val * 64 + (i 1).val / 1024) * 1024 + (i 1).val % 1024 = (i 0).val * 65536 + (i 1).val
      omega)]
  rfl

/-- The idealized kernel runs, ends with the result array at the pooled entries in their two-halves form, and leaves
    its arguments as they were. -/
theorem run (ρ : Dev nD → PrngReg) :
    θ_run defs (onTc (τ := τ) (main (F := Ideal))) ⟨mi, fun _ => 0, ρ⟩ fun r => ∀ c : Dev nD,
      r.2.mem ((c.tc : Thread nD τ).loc main_v2)
          = (fun i => Cert.AttnPool.kerOut (Cert.AttnPool.cur3 (Harr mi c)) (Cert.AttnPool.cur2 (Qarr mi c))
              (Cert.AttnPool.bOf i) (Cert.AttnPool.cOf i) (Cert.AttnPool.hOf i))
      ∧ r.2.mem ((c.tc : Thread nD τ).loc main_arg0) = mi ((c.tc : Thread nD τ).loc main_arg0)
      ∧ r.2.mem ((c.tc : Thread nD τ).loc main_arg1) = mi ((c.tc : Thread nD τ).loc main_arg1) :=
  (θ_run defs _ _).mono (fun r h c =>
    ⟨((h c).2 main_v2 (Pipeline.mem_restRefs_of main_v2 (by decide) (by decide))).trans
        ((tail_eq mi c).trans (funext (result_apply mi c))),
      ((h c).1 0).trans (((dats mi 0 c).arrAt_in 0 rfl _).trans ((A_eq mi c 0).trans (V_main_arg0 mi c))),
      ((h c).2 main_arg1 (Pipeline.mem_restRefs_of main_arg1 (by decide) (by decide))).trans (W_main_arg1 mi (dats mi) c)⟩)
    (run_main mi ρ)

end AtIdeal

end Cert.KernelIdeal.Points

end
-- ==== Proof.lean ====
/-
  Attention pooling in two arrangements.

  The reference scores every sequence position of a batch against every query row, takes the softmax of the scores
  over the whole sequence axis, and pools the hidden states with those weights.  The kernel goes over the sequence
  axis in two halves with a running maximum and running sums kept between the halves, rescales the first half's
  sums by exp (old maximum - new maximum), and divides once at the end.  On the extended reals the two agree wherever
  every hidden state and query is a real number — exp (a - b) * exp (x - a) = exp (x - b), and a quotient of a finite
  sum by a nonzero real is the sum of the quotients — which is what the precondition provides; at an infinite score
  the rescaling meets the conventions for infinity minus infinity, so the precondition is used, not decoration.

  The pieces: the two arrangements and their agreement on reals (Spec, Softmax); the reference's result read at an
  entry as the whole-axis form (RefValue); every input entry real under the precondition (Finite); what each grid
  point leaves in the carried buffers and in the output block (Pieces), that arithmetic entry by entry (PointValue),
  and the output array and flattened result as the two-halves form of every entry (KerArray).  The kernel's format
  changes are the identity on the extended reals, so the narrower-format tile is the block itself.
-/
import proofs.«413821_j2937757630770_3_alg».proof.Defs
import proofs.«413821_j2937757630770_3_alg».proof.Proof.Gen.Kernel
import proofs.«413821_j2937757630770_3_alg».proof.Proof.Gen.Kernel.Skeleton
import proofs.«413821_j2937757630770_3_alg».proof.Proof.Gen.Kernel.Launch
import proofs.«413821_j2937757630770_3_alg».proof.Proof.Gen.Kernel.Points
import proofs.«413821_j2937757630770_3_alg».proof.Proof.Gen.Kernel.Frame
import proofs.«413821_j2937757630770_3_alg».proof.Proof.Gen.KernelIdeal
import proofs.«413821_j2937757630770_3_alg».proof.Proof.Gen.KernelIdeal.Skeleton
import proofs.«413821_j2937757630770_3_alg».proof.Proof.Gen.KernelIdeal.Launch
import proofs.«413821_j2937757630770_3_alg».proof.Proof.Gen.KernelIdeal.Points
import proofs.«413821_j2937757630770_3_alg».proof.Proof.Gen.KernelIdeal.Frame
import proofs.«413821_j2937757630770_3_alg».proof.Proof.Gen.ReferenceIdeal
import proofs.«413821_j2937757630770_3_alg».proof.Proof.Gen.Pre_finite_inputs
import proofs.«413821_j2937757630770_3_alg».proof.Proof.Gen.ReferenceIdeal.Run
import proofs.«413821_j2937757630770_3_alg».proof.Proof.Gen.ReferenceIdeal.Read
import proofs.«413821_j2937757630770_3_alg».proof.Proof.Softmax
import proofs.«413821_j2937757630770_3_alg».proof.Proof.RefValue
import proofs.«413821_j2937757630770_3_alg».proof.Proof.Finite
import proofs.«413821_j2937757630770_3_alg».proof.Proof.KerArray
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a straight line of array operations: it runs, and writes none of its arguments. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten to read it on the extended reals. -/
theorem preserves : Cert.preserves_Kernel_KernelIdeal := trivial

/-- From arguments that agree and are real numbers, both programs end with the same pooled entries: the kernel's are
    the two-halves form, the reference's the whole-axis form, and on reals the two forms are one number. -/
theorem algebraic : Cert.algebraic_KernelIdeal_ReferenceIdeal := by
  intro m ρ m' ρ' hpre hagree
  refine ⟨fun c => fun i => Cert.AttnPool.kerOut
      (Cert.AttnPool.cur3 (m ((c.tc : Thread Cert.KernelIdeal.nD Cert.KernelIdeal.τ).loc Cert.KernelIdeal.main_arg0)))
      (Cert.AttnPool.cur2 (m ((c.tc : Thread Cert.KernelIdeal.nD Cert.KernelIdeal.τ).loc Cert.KernelIdeal.main_arg1)))
      (Cert.AttnPool.bOf i) (Cert.AttnPool.cOf i) (Cert.AttnPool.hOf i),
    Cert.KernelIdeal.Points.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2]
  funext i
  beta_reduce
  rw [Cert.ReferenceIdeal.RefValue.ref_apply]
  obtain ⟨Hr, Qr, eH, eQ⟩ := Cert.AttnPool.real_of_pre _ _ (hpre c)
  rw [eH, eQ]
  exact (Cert.AttnPool.kerOut_eq_refOut Hr Qr _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
